-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x22x3x3 : Shape := ⟨4, ![262144, 22, 3, 3]⟩
abbrev S_ : Shape := ⟨0, ![]⟩

class Facts : Prop where
  bcast_S_S262144x22x3x3 : S_.BroadcastsInDim S262144x22x3x3 (![] : Fin 0 → Fin S262144x22x3x3.rank)
  reducesTo_S262144x22x3x3_S_d0_1_2_3 : S262144x22x3x3.ReducesTo [0, 1, 2, 3] S_
  h_S_ : 0 < S_.numel

variable [Facts]

def fn {F : FTy → Type} [FloatOps F] (main_arg0 : FVec F S262144x22x3x3 .f32) : IVec S_ 1 :=
  let main_v0 : FVec F S262144x22x3x3 .f32 := Host.absf main_arg0
  let main_cst : FVec F S_ .f32 := constant S_ .f32 0x7F800000#32
  let main_v1 : FVec F S262144x22x3x3 .f32 := broadcastInDim S262144x22x3x3 ![] bcast_S_S262144x22x3x3 main_cst
  let main_v2 : IVec S262144x22x3x3 1 := cmpf .olt main_v0 main_v1
  let main_c : IVec S_ 1 := constantI S_ 1 1#1
  let main_v3 : IVec S_ 1 := (fun x v => Host.reduce IntOp.andi x v reducesTo_S262144x22x3x3_S_d0_1_2_3 h_S_) main_v2 main_c
  main_v3
-- ==== Kernel.lean ====
abbrev S262144x22x3x3 : Shape := ⟨4, ![262144, 22, 3, 3]⟩
abbrev S262144x198 : Shape := ⟨2, ![262144, 198]⟩
abbrev S4096x198 : Shape := ⟨2, ![4096, 198]⟩
abbrev S198x4096 : Shape := ⟨2, ![198, 4096]⟩
abbrev S1x4096 : Shape := ⟨2, ![1, 4096]⟩
abbrev S9x4096 : Shape := ⟨2, ![9, 4096]⟩

abbrev nBuf : Space → Nat
  | .hbm => 4
  | .vmem => 5
  | .smem => 0
  | _ => 0

abbrev bufTy : (tb : Table) → Fin (tcTables nBuf tb) → BufTy
  | .hbm, ⟨0, _⟩ => ⟨S262144x22x3x3, .f32⟩
  | .hbm, ⟨1, _⟩ => ⟨S262144x198, .f32⟩
  | .hbm, ⟨2, _⟩ => ⟨S262144x198, .f32⟩
  | .hbm, ⟨3, _⟩ => ⟨S262144x22x3x3, .f32⟩
  | .local _ .vmem, ⟨0, _⟩ => ⟨S4096x198, .f32⟩
  | .local _ .vmem, ⟨1, _⟩ => ⟨S4096x198, .f32⟩
  | .local _ .vmem, ⟨2, _⟩ => ⟨S4096x198, .f32⟩
  | .local _ .vmem, ⟨3, _⟩ => ⟨S4096x198, .f32⟩
  | .local _ .vmem, ⟨4, _⟩ => ⟨S198x4096, .f32⟩
  | _, _ => ⟨S262144x22x3x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x198 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x198 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S262144x22x3x3_S262144x198 : S262144x22x3x3.ShapeCasts S262144x198
  inb_S4096x198_S4096x198_0_0 : ∀ a, (![0, 0] : Fin 2 → Nat) a + S4096x198.size a ≤ S4096x198.size a
  h_S4096x198 : 0 < S4096x198.numel
  shapeCasts_S4096x198_S4096x198 : S4096x198.ShapeCasts S4096x198
  transposes_S4096x198_p1_0_S198x4096 : S4096x198.Transposes [1, 0] S198x4096
  slices_S198x4096_o0_0_S1x4096 : S198x4096.Slices ![0, 0] S1x4096
  slices_S198x4096_o1_0_S1x4096 : S198x4096.Slices ![1, 0] S1x4096
  slices_S198x4096_o2_0_S1x4096 : S198x4096.Slices ![2, 0] S1x4096
  slices_S198x4096_o3_0_S1x4096 : S198x4096.Slices ![3, 0] S1x4096
  slices_S198x4096_o4_0_S1x4096 : S198x4096.Slices ![4, 0] S1x4096
  slices_S198x4096_o5_0_S1x4096 : S198x4096.Slices ![5, 0] S1x4096
  slices_S198x4096_o6_0_S1x4096 : S198x4096.Slices ![6, 0] S1x4096
  slices_S198x4096_o7_0_S1x4096 : S198x4096.Slices ![7, 0] S1x4096
  slices_S198x4096_o8_0_S1x4096 : S198x4096.Slices ![8, 0] S1x4096
  concatenates_S1x4096_S1x4096_S1x4096_S1x4096_S1x4096_S1x4096_S1x4096_S1x4096_S1x4096_S9x4096_d0 : Shape.Concatenates [S1x4096, S1x4096, S1x4096, S1x4096, S1x4096, S1x4096, S1x4096, S1x4096, S1x4096] S9x4096 0
  inb_S198x4096_S9x4096_0_0 : ∀ a, (![0, 0] : Fin 2 → Nat) a + S9x4096.size a ≤ S198x4096.size a
  h_S9x4096 : 0 < S9x4096.numel
  shapeCasts_S9x4096_S9x4096 : S9x4096.ShapeCasts S9x4096
  slices_S198x4096_o9_0_S1x4096 : S198x4096.Slices ![9, 0] S1x4096
  slices_S198x4096_o10_0_S1x4096 : S198x4096.Slices ![10, 0] S1x4096
  slices_S198x4096_o11_0_S1x4096 : S198x4096.Slices ![11, 0] S1x4096
  slices_S198x4096_o12_0_S1x4096 : S198x4096.Slices ![12, 0] S1x4096
  slices_S198x4096_o13_0_S1x4096 : S198x4096.Slices ![13, 0] S1x4096
  slices_S198x4096_o14_0_S1x4096 : S198x4096.Slices ![14, 0] S1x4096
  slices_S198x4096_o15_0_S1x4096 : S198x4096.Slices ![15, 0] S1x4096
  slices_S198x4096_o16_0_S1x4096 : S198x4096.Slices ![16, 0] S1x4096
  slices_S198x4096_o17_0_S1x4096 : S198x4096.Slices ![17, 0] S1x4096
  inb_S198x4096_S9x4096_9_0 : ∀ a, (![9, 0] : Fin 2 → Nat) a + S9x4096.size a ≤ S198x4096.size a
  slices_S198x4096_o18_0_S1x4096 : S198x4096.Slices ![18, 0] S1x4096
  slices_S198x4096_o19_0_S1x4096 : S198x4096.Slices ![19, 0] S1x4096
  slices_S198x4096_o20_0_S1x4096 : S198x4096.Slices ![20, 0] S1x4096
  slices_S198x4096_o21_0_S1x4096 : S198x4096.Slices ![21, 0] S1x4096
  slices_S198x4096_o22_0_S1x4096 : S198x4096.Slices ![22, 0] S1x4096
  slices_S198x4096_o23_0_S1x4096 : S198x4096.Slices ![23, 0] S1x4096
  slices_S198x4096_o24_0_S1x4096 : S198x4096.Slices ![24, 0] S1x4096
  slices_S198x4096_o25_0_S1x4096 : S198x4096.Slices ![25, 0] S1x4096
  slices_S198x4096_o26_0_S1x4096 : S198x4096.Slices ![26, 0] S1x4096
  inb_S198x4096_S9x4096_18_0 : ∀ a, (![18, 0] : Fin 2 → Nat) a + S9x4096.size a ≤ S198x4096.size a
  slices_S198x4096_o27_0_S1x4096 : S198x4096.Slices ![27, 0] S1x4096
  slices_S198x4096_o28_0_S1x4096 : S198x4096.Slices ![28, 0] S1x4096
  slices_S198x4096_o29_0_S1x4096 : S198x4096.Slices ![29, 0] S1x4096
  slices_S198x4096_o30_0_S1x4096 : S198x4096.Slices ![30, 0] S1x4096
  slices_S198x4096_o31_0_S1x4096 : S198x4096.Slices ![31, 0] S1x4096
  slices_S198x4096_o32_0_S1x4096 : S198x4096.Slices ![32, 0] S1x4096
  slices_S198x4096_o33_0_S1x4096 : S198x4096.Slices ![33, 0] S1x4096
  slices_S198x4096_o34_0_S1x4096 : S198x4096.Slices ![34, 0] S1x4096
  slices_S198x4096_o35_0_S1x4096 : S198x4096.Slices ![35, 0] S1x4096
  inb_S198x4096_S9x4096_27_0 : ∀ a, (![27, 0] : Fin 2 → Nat) a + S9x4096.size a ≤ S198x4096.size a
  slices_S198x4096_o36_0_S1x4096 : S198x4096.Slices ![36, 0] S1x4096
  slices_S198x4096_o37_0_S1x4096 : S198x4096.Slices ![37, 0] S1x4096
  slices_S198x4096_o38_0_S1x4096 : S198x4096.Slices ![38, 0] S1x4096
  slices_S198x4096_o39_0_S1x4096 : S198x4096.Slices ![39, 0] S1x4096
  slices_S198x4096_o40_0_S1x4096 : S198x4096.Slices ![40, 0] S1x4096
  slices_S198x4096_o41_0_S1x4096 : S198x4096.Slices ![41, 0] S1x4096
  slices_S198x4096_o42_0_S1x4096 : S198x4096.Slices ![42, 0] S1x4096
  slices_S198x4096_o43_0_S1x4096 : S198x4096.Slices ![43, 0] S1x4096
  slices_S198x4096_o44_0_S1x4096 : S198x4096.Slices ![44, 0] S1x4096
  inb_S198x4096_S9x4096_36_0 : ∀ a, (![36, 0] : Fin 2 → Nat) a + S9x4096.size a ≤ S198x4096.size a
  slices_S198x4096_o45_0_S1x4096 : S198x4096.Slices ![45, 0] S1x4096
  slices_S198x4096_o46_0_S1x4096 : S198x4096.Slices ![46, 0] S1x4096
  slices_S198x4096_o47_0_S1x4096 : S198x4096.Slices ![47, 0] S1x4096
  slices_S198x4096_o48_0_S1x4096 : S198x4096.Slices ![48, 0] S1x4096
  slices_S198x4096_o49_0_S1x4096 : S198x4096.Slices ![49, 0] S1x4096
  slices_S198x4096_o50_0_S1x4096 : S198x4096.Slices ![50, 0] S1x4096
  slices_S198x4096_o51_0_S1x4096 : S198x4096.Slices ![51, 0] S1x4096
  slices_S198x4096_o52_0_S1x4096 : S198x4096.Slices ![52, 0] S1x4096
  slices_S198x4096_o53_0_S1x4096 : S198x4096.Slices ![53, 0] S1x4096
  inb_S198x4096_S9x4096_45_0 : ∀ a, (![45, 0] : Fin 2 → Nat) a + S9x4096.size a ≤ S198x4096.size a
  slices_S198x4096_o54_0_S1x4096 : S198x4096.Slices ![54, 0] S1x4096
  slices_S198x4096_o55_0_S1x4096 : S198x4096.Slices ![55, 0] S1x4096
  slices_S198x4096_o56_0_S1x4096 : S198x4096.Slices ![56, 0] S1x4096
  slices_S198x4096_o57_0_S1x4096 : S198x4096.Slices ![57, 0] S1x4096
  slices_S198x4096_o58_0_S1x4096 : S198x4096.Slices ![58, 0] S1x4096
  slices_S198x4096_o59_0_S1x4096 : S198x4096.Slices ![59, 0] S1x4096
  slices_S198x4096_o60_0_S1x4096 : S198x4096.Slices ![60, 0] S1x4096
  slices_S198x4096_o61_0_S1x4096 : S198x4096.Slices ![61, 0] S1x4096
  slices_S198x4096_o62_0_S1x4096 : S198x4096.Slices ![62, 0] S1x4096
  inb_S198x4096_S9x4096_54_0 : ∀ a, (![54, 0] : Fin 2 → Nat) a + S9x4096.size a ≤ S198x4096.size a
  slices_S198x4096_o63_0_S1x4096 : S198x4096.Slices ![63, 0] S1x4096
  slices_S198x4096_o64_0_S1x4096 : S198x4096.Slices ![64, 0] S1x4096
  slices_S198x4096_o65_0_S1x4096 : S198x4096.Slices ![65, 0] S1x4096
  slices_S198x4096_o66_0_S1x4096 : S198x4096.Slices ![66, 0] S1x4096
  slices_S198x4096_o67_0_S1x4096 : S198x4096.Slices ![67, 0] S1x4096
  slices_S198x4096_o68_0_S1x4096 : S198x4096.Slices ![68, 0] S1x4096
  slices_S198x4096_o69_0_S1x4096 : S198x4096.Slices ![69, 0] S1x4096
  slices_S198x4096_o70_0_S1x4096 : S198x4096.Slices ![70, 0] S1x4096
  slices_S198x4096_o71_0_S1x4096 : S198x4096.Slices ![71, 0] S1x4096
  inb_S198x4096_S9x4096_63_0 : ∀ a, (![63, 0] : Fin 2 → Nat) a + S9x4096.size a ≤ S198x4096.size a
  slices_S198x4096_o72_0_S1x4096 : S198x4096.Slices ![72, 0] S1x4096
  slices_S198x4096_o73_0_S1x4096 : S198x4096.Slices ![73, 0] S1x4096
  slices_S198x4096_o74_0_S1x4096 : S198x4096.Slices ![74, 0] S1x4096
  slices_S198x4096_o75_0_S1x4096 : S198x4096.Slices ![75, 0] S1x4096
  slices_S198x4096_o76_0_S1x4096 : S198x4096.Slices ![76, 0] S1x4096
  slices_S198x4096_o77_0_S1x4096 : S198x4096.Slices ![77, 0] S1x4096
  slices_S198x4096_o78_0_S1x4096 : S198x4096.Slices ![78, 0] S1x4096
  slices_S198x4096_o79_0_S1x4096 : S198x4096.Slices ![79, 0] S1x4096
  slices_S198x4096_o80_0_S1x4096 : S198x4096.Slices ![80, 0] S1x4096
  inb_S198x4096_S9x4096_72_0 : ∀ a, (![72, 0] : Fin 2 → Nat) a + S9x4096.size a ≤ S198x4096.size a
  slices_S198x4096_o81_0_S1x4096 : S198x4096.Slices ![81, 0] S1x4096
  slices_S198x4096_o82_0_S1x4096 : S198x4096.Slices ![82, 0] S1x4096
  slices_S198x4096_o83_0_S1x4096 : S198x4096.Slices ![83, 0] S1x4096
  slices_S198x4096_o84_0_S1x4096 : S198x4096.Slices ![84, 0] S1x4096
  slices_S198x4096_o85_0_S1x4096 : S198x4096.Slices ![85, 0] S1x4096
  slices_S198x4096_o86_0_S1x4096 : S198x4096.Slices ![86, 0] S1x4096
  slices_S198x4096_o87_0_S1x4096 : S198x4096.Slices ![87, 0] S1x4096
  slices_S198x4096_o88_0_S1x4096 : S198x4096.Slices ![88, 0] S1x4096
  slices_S198x4096_o89_0_S1x4096 : S198x4096.Slices ![89, 0] S1x4096
  inb_S198x4096_S9x4096_81_0 : ∀ a, (![81, 0] : Fin 2 → Nat) a + S9x4096.size a ≤ S198x4096.size a
  slices_S198x4096_o90_0_S1x4096 : S198x4096.Slices ![90, 0] S1x4096
  slices_S198x4096_o91_0_S1x4096 : S198x4096.Slices ![91, 0] S1x4096
  slices_S198x4096_o92_0_S1x4096 : S198x4096.Slices ![92, 0] S1x4096
  slices_S198x4096_o93_0_S1x4096 : S198x4096.Slices ![93, 0] S1x4096
  slices_S198x4096_o94_0_S1x4096 : S198x4096.Slices ![94, 0] S1x4096
  slices_S198x4096_o95_0_S1x4096 : S198x4096.Slices ![95, 0] S1x4096
  slices_S198x4096_o96_0_S1x4096 : S198x4096.Slices ![96, 0] S1x4096
  slices_S198x4096_o97_0_S1x4096 : S198x4096.Slices ![97, 0] S1x4096
  slices_S198x4096_o98_0_S1x4096 : S198x4096.Slices ![98, 0] S1x4096
  inb_S198x4096_S9x4096_90_0 : ∀ a, (![90, 0] : Fin 2 → Nat) a + S9x4096.size a ≤ S198x4096.size a
  slices_S198x4096_o99_0_S1x4096 : S198x4096.Slices ![99, 0] S1x4096
  slices_S198x4096_o100_0_S1x4096 : S198x4096.Slices ![100, 0] S1x4096
  slices_S198x4096_o101_0_S1x4096 : S198x4096.Slices ![101, 0] S1x4096
  slices_S198x4096_o102_0_S1x4096 : S198x4096.Slices ![102, 0] S1x4096
  slices_S198x4096_o103_0_S1x4096 : S198x4096.Slices ![103, 0] S1x4096
  slices_S198x4096_o104_0_S1x4096 : S198x4096.Slices ![104, 0] S1x4096
  slices_S198x4096_o105_0_S1x4096 : S198x4096.Slices ![105, 0] S1x4096
  slices_S198x4096_o106_0_S1x4096 : S198x4096.Slices ![106, 0] S1x4096
  slices_S198x4096_o107_0_S1x4096 : S198x4096.Slices ![107, 0] S1x4096
  inb_S198x4096_S9x4096_99_0 : ∀ a, (![99, 0] : Fin 2 → Nat) a + S9x4096.size a ≤ S198x4096.size a
  slices_S198x4096_o108_0_S1x4096 : S198x4096.Slices ![108, 0] S1x4096
  slices_S198x4096_o109_0_S1x4096 : S198x4096.Slices ![109, 0] S1x4096
  slices_S198x4096_o110_0_S1x4096 : S198x4096.Slices ![110, 0] S1x4096
  slices_S198x4096_o111_0_S1x4096 : S198x4096.Slices ![111, 0] S1x4096
  slices_S198x4096_o112_0_S1x4096 : S198x4096.Slices ![112, 0] S1x4096
  slices_S198x4096_o113_0_S1x4096 : S198x4096.Slices ![113, 0] S1x4096
  slices_S198x4096_o114_0_S1x4096 : S198x4096.Slices ![114, 0] S1x4096
  slices_S198x4096_o115_0_S1x4096 : S198x4096.Slices ![115, 0] S1x4096
  slices_S198x4096_o116_0_S1x4096 : S198x4096.Slices ![116, 0] S1x4096
  inb_S198x4096_S9x4096_108_0 : ∀ a, (![108, 0] : Fin 2 → Nat) a + S9x4096.size a ≤ S198x4096.size a
  slices_S198x4096_o117_0_S1x4096 : S198x4096.Slices ![117, 0] S1x4096
  slices_S198x4096_o118_0_S1x4096 : S198x4096.Slices ![118, 0] S1x4096
  slices_S198x4096_o119_0_S1x4096 : S198x4096.Slices ![119, 0] S1x4096
  slices_S198x4096_o120_0_S1x4096 : S198x4096.Slices ![120, 0] S1x4096
  slices_S198x4096_o121_0_S1x4096 : S198x4096.Slices ![121, 0] S1x4096
  slices_S198x4096_o122_0_S1x4096 : S198x4096.Slices ![122, 0] S1x4096
  slices_S198x4096_o123_0_S1x4096 : S198x4096.Slices ![123, 0] S1x4096
  slices_S198x4096_o124_0_S1x4096 : S198x4096.Slices ![124, 0] S1x4096
  slices_S198x4096_o125_0_S1x4096 : S198x4096.Slices ![125, 0] S1x4096
  inb_S198x4096_S9x4096_117_0 : ∀ a, (![117, 0] : Fin 2 → Nat) a + S9x4096.size a ≤ S198x4096.size a
  slices_S198x4096_o126_0_S1x4096 : S198x4096.Slices ![126, 0] S1x4096
  slices_S198x4096_o127_0_S1x4096 : S198x4096.Slices ![127, 0] S1x4096
  slices_S198x4096_o128_0_S1x4096 : S198x4096.Slices ![128, 0] S1x4096
  slices_S198x4096_o129_0_S1x4096 : S198x4096.Slices ![129, 0] S1x4096
  slices_S198x4096_o130_0_S1x4096 : S198x4096.Slices ![130, 0] S1x4096
  slices_S198x4096_o131_0_S1x4096 : S198x4096.Slices ![131, 0] S1x4096
  slices_S198x4096_o132_0_S1x4096 : S198x4096.Slices ![132, 0] S1x4096
  slices_S198x4096_o133_0_S1x4096 : S198x4096.Slices ![133, 0] S1x4096
  slices_S198x4096_o134_0_S1x4096 : S198x4096.Slices ![134, 0] S1x4096
  inb_S198x4096_S9x4096_126_0 : ∀ a, (![126, 0] : Fin 2 → Nat) a + S9x4096.size a ≤ S198x4096.size a
  slices_S198x4096_o135_0_S1x4096 : S198x4096.Slices ![135, 0] S1x4096
  slices_S198x4096_o136_0_S1x4096 : S198x4096.Slices ![136, 0] S1x4096
  slices_S198x4096_o137_0_S1x4096 : S198x4096.Slices ![137, 0] S1x4096
  slices_S198x4096_o138_0_S1x4096 : S198x4096.Slices ![138, 0] S1x4096
  slices_S198x4096_o139_0_S1x4096 : S198x4096.Slices ![139, 0] S1x4096
  slices_S198x4096_o140_0_S1x4096 : S198x4096.Slices ![140, 0] S1x4096
  slices_S198x4096_o141_0_S1x4096 : S198x4096.Slices ![141, 0] S1x4096
  slices_S198x4096_o142_0_S1x4096 : S198x4096.Slices ![142, 0] S1x4096
  slices_S198x4096_o143_0_S1x4096 : S198x4096.Slices ![143, 0] S1x4096
  inb_S198x4096_S9x4096_135_0 : ∀ a, (![135, 0] : Fin 2 → Nat) a + S9x4096.size a ≤ S198x4096.size a
  slices_S198x4096_o144_0_S1x4096 : S198x4096.Slices ![144, 0] S1x4096
  slices_S198x4096_o145_0_S1x4096 : S198x4096.Slices ![145, 0] S1x4096
  slices_S198x4096_o146_0_S1x4096 : S198x4096.Slices ![146, 0] S1x4096
  slices_S198x4096_o147_0_S1x4096 : S198x4096.Slices ![147, 0] S1x4096
  slices_S198x4096_o148_0_S1x4096 : S198x4096.Slices ![148, 0] S1x4096
  slices_S198x4096_o149_0_S1x4096 : S198x4096.Slices ![149, 0] S1x4096
  slices_S198x4096_o150_0_S1x4096 : S198x4096.Slices ![150, 0] S1x4096
  slices_S198x4096_o151_0_S1x4096 : S198x4096.Slices ![151, 0] S1x4096
  slices_S198x4096_o152_0_S1x4096 : S198x4096.Slices ![152, 0] S1x4096
  inb_S198x4096_S9x4096_144_0 : ∀ a, (![144, 0] : Fin 2 → Nat) a + S9x4096.size a ≤ S198x4096.size a
  slices_S198x4096_o153_0_S1x4096 : S198x4096.Slices ![153, 0] S1x4096
  slices_S198x4096_o154_0_S1x4096 : S198x4096.Slices ![154, 0] S1x4096
  slices_S198x4096_o155_0_S1x4096 : S198x4096.Slices ![155, 0] S1x4096
  slices_S198x4096_o156_0_S1x4096 : S198x4096.Slices ![156, 0] S1x4096
  slices_S198x4096_o157_0_S1x4096 : S198x4096.Slices ![157, 0] S1x4096
  slices_S198x4096_o158_0_S1x4096 : S198x4096.Slices ![158, 0] S1x4096
  slices_S198x4096_o159_0_S1x4096 : S198x4096.Slices ![159, 0] S1x4096
  slices_S198x4096_o160_0_S1x4096 : S198x4096.Slices ![160, 0] S1x4096
  slices_S198x4096_o161_0_S1x4096 : S198x4096.Slices ![161, 0] S1x4096
  inb_S198x4096_S9x4096_153_0 : ∀ a, (![153, 0] : Fin 2 → Nat) a + S9x4096.size a ≤ S198x4096.size a
  slices_S198x4096_o162_0_S1x4096 : S198x4096.Slices ![162, 0] S1x4096
  slices_S198x4096_o163_0_S1x4096 : S198x4096.Slices ![163, 0] S1x4096
  slices_S198x4096_o164_0_S1x4096 : S198x4096.Slices ![164, 0] S1x4096
  slices_S198x4096_o165_0_S1x4096 : S198x4096.Slices ![165, 0] S1x4096
  slices_S198x4096_o166_0_S1x4096 : S198x4096.Slices ![166, 0] S1x4096
  slices_S198x4096_o167_0_S1x4096 : S198x4096.Slices ![167, 0] S1x4096
  slices_S198x4096_o168_0_S1x4096 : S198x4096.Slices ![168, 0] S1x4096
  slices_S198x4096_o169_0_S1x4096 : S198x4096.Slices ![169, 0] S1x4096
  slices_S198x4096_o170_0_S1x4096 : S198x4096.Slices ![170, 0] S1x4096
  inb_S198x4096_S9x4096_162_0 : ∀ a, (![162, 0] : Fin 2 → Nat) a + S9x4096.size a ≤ S198x4096.size a
  slices_S198x4096_o171_0_S1x4096 : S198x4096.Slices ![171, 0] S1x4096
  slices_S198x4096_o172_0_S1x4096 : S198x4096.Slices ![172, 0] S1x4096
  slices_S198x4096_o173_0_S1x4096 : S198x4096.Slices ![173, 0] S1x4096
  slices_S198x4096_o174_0_S1x4096 : S198x4096.Slices ![174, 0] S1x4096
  slices_S198x4096_o175_0_S1x4096 : S198x4096.Slices ![175, 0] S1x4096
  slices_S198x4096_o176_0_S1x4096 : S198x4096.Slices ![176, 0] S1x4096
  slices_S198x4096_o177_0_S1x4096 : S198x4096.Slices ![177, 0] S1x4096
  slices_S198x4096_o178_0_S1x4096 : S198x4096.Slices ![178, 0] S1x4096
  slices_S198x4096_o179_0_S1x4096 : S198x4096.Slices ![179, 0] S1x4096
  inb_S198x4096_S9x4096_171_0 : ∀ a, (![171, 0] : Fin 2 → Nat) a + S9x4096.size a ≤ S198x4096.size a
  slices_S198x4096_o180_0_S1x4096 : S198x4096.Slices ![180, 0] S1x4096
  slices_S198x4096_o181_0_S1x4096 : S198x4096.Slices ![181, 0] S1x4096
  slices_S198x4096_o182_0_S1x4096 : S198x4096.Slices ![182, 0] S1x4096
  slices_S198x4096_o183_0_S1x4096 : S198x4096.Slices ![183, 0] S1x4096
  slices_S198x4096_o184_0_S1x4096 : S198x4096.Slices ![184, 0] S1x4096
  slices_S198x4096_o185_0_S1x4096 : S198x4096.Slices ![185, 0] S1x4096
  slices_S198x4096_o186_0_S1x4096 : S198x4096.Slices ![186, 0] S1x4096
  slices_S198x4096_o187_0_S1x4096 : S198x4096.Slices ![187, 0] S1x4096
  slices_S198x4096_o188_0_S1x4096 : S198x4096.Slices ![188, 0] S1x4096
  inb_S198x4096_S9x4096_180_0 : ∀ a, (![180, 0] : Fin 2 → Nat) a + S9x4096.size a ≤ S198x4096.size a
  slices_S198x4096_o189_0_S1x4096 : S198x4096.Slices ![189, 0] S1x4096
  slices_S198x4096_o190_0_S1x4096 : S198x4096.Slices ![190, 0] S1x4096
  slices_S198x4096_o191_0_S1x4096 : S198x4096.Slices ![191, 0] S1x4096
  slices_S198x4096_o192_0_S1x4096 : S198x4096.Slices ![192, 0] S1x4096
  slices_S198x4096_o193_0_S1x4096 : S198x4096.Slices ![193, 0] S1x4096
  slices_S198x4096_o194_0_S1x4096 : S198x4096.Slices ![194, 0] S1x4096
  slices_S198x4096_o195_0_S1x4096 : S198x4096.Slices ![195, 0] S1x4096
  slices_S198x4096_o196_0_S1x4096 : S198x4096.Slices ![196, 0] S1x4096
  slices_S198x4096_o197_0_S1x4096 : S198x4096.Slices ![197, 0] S1x4096
  inb_S198x4096_S9x4096_189_0 : ∀ a, (![189, 0] : Fin 2 → Nat) a + S9x4096.size a ≤ S198x4096.size a
  inb_S198x4096_S198x4096_0_0 : ∀ a, (![0, 0] : Fin 2 → Nat) a + S198x4096.size a ≤ S198x4096.size a
  h_S198x4096 : 0 < S198x4096.numel
  transposes_S198x4096_p1_0_S4096x198 : S198x4096.Transposes [1, 0] S4096x198
  shapeCasts_S262144x198_S262144x22x3x3 : S262144x198.ShapeCasts S262144x22x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x198.size a ≤ S262144x198.size a
  hwx0_0 : ∀ i : grid0.Coords, EltTy.bits .f32 = 32 ∨ (Rect.block (s := S262144x198) S4096x198.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x198.size a ≤ S262144x198.size a
  hwx0_1 : ∀ i : grid0.Coords, EltTy.bits .f32 = 32 ∨ (Rect.block (s := S262144x198) S4096x198.size (cc0_transform_1 i) (hinb0_1 i)).WholeWords (EltTy.packing .f32)

variable [Facts₀]

abbrev win0_0 : Pipeline.Window sig grid0 :=
  Pipeline.Window.ofSpec (Memref.whole main_v0) S4096x198.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x198.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S262144x22x3x3 : Shape := ⟨4, ![262144, 22, 3, 3]⟩
abbrev S262144x1x3x3 : Shape := ⟨4, ![262144, 1, 3, 3]⟩
abbrev S262144x3x3 : Shape := ⟨3, ![262144, 3, 3]⟩
abbrev S262144x16x3x3 : Shape := ⟨4, ![262144, 16, 3, 3]⟩
abbrev S262144x6x3x3 : Shape := ⟨4, ![262144, 6, 3, 3]⟩

abbrev nBuf : Space → Nat
  | .hbm => 91
  | .vmem => 0
  | .smem => 0
  | _ => 0

abbrev bufTy : (tb : Table) → Fin (tcTables nBuf tb) → BufTy
  | .hbm, ⟨0, _⟩ => ⟨S262144x22x3x3, .f32⟩
  | .hbm, ⟨1, _⟩ => ⟨S262144x1x3x3, .f32⟩
  | .hbm, ⟨2, _⟩ => ⟨S262144x3x3, .f32⟩
  | .hbm, ⟨3, _⟩ => ⟨S262144x1x3x3, .f32⟩
  | .hbm, ⟨4, _⟩ => ⟨S262144x3x3, .f32⟩
  | .hbm, ⟨5, _⟩ => ⟨S262144x3x3, .f32⟩
  | .hbm, ⟨6, _⟩ => ⟨S262144x1x3x3, .f32⟩
  | .hbm, ⟨7, _⟩ => ⟨S262144x3x3, .f32⟩
  | .hbm, ⟨8, _⟩ => ⟨S262144x3x3, .f32⟩
  | .hbm, ⟨9, _⟩ => ⟨S262144x1x3x3, .f32⟩
  | .hbm, ⟨10, _⟩ => ⟨S262144x3x3, .f32⟩
  | .hbm, ⟨11, _⟩ => ⟨S262144x3x3, .f32⟩
  | .hbm, ⟨12, _⟩ => ⟨S262144x1x3x3, .f32⟩
  | .hbm, ⟨13, _⟩ => ⟨S262144x3x3, .f32⟩
  | .hbm, ⟨14, _⟩ => ⟨S262144x3x3, .f32⟩
  | .hbm, ⟨15, _⟩ => ⟨S262144x1x3x3, .f32⟩
  | .hbm, ⟨16, _⟩ => ⟨S262144x3x3, .f32⟩
  | .hbm, ⟨17, _⟩ => ⟨S262144x3x3, .f32⟩
  | .hbm, ⟨18, _⟩ => ⟨S262144x1x3x3, .f32⟩
  | .hbm, ⟨19, _⟩ => ⟨S262144x3x3, .f32⟩
  | .hbm, ⟨20, _⟩ => ⟨S262144x3x3, .f32⟩
  | .hbm, ⟨21, _⟩ => ⟨S262144x1x3x3, .f32⟩
  | .hbm, ⟨22, _⟩ => ⟨S262144x3x3, .f32⟩
  | .hbm, ⟨23, _⟩ => ⟨S262144x3x3, .f32⟩
  | .hbm, ⟨24, _⟩ => ⟨S262144x1x3x3, .f32⟩
  | .hbm, ⟨25, _⟩ => ⟨S262144x3x3, .f32⟩
  | .hbm, ⟨26, _⟩ => ⟨S262144x3x3, .f32⟩
  | .hbm, ⟨27, _⟩ => ⟨S262144x1x3x3, .f32⟩
  | .hbm, ⟨28, _⟩ => ⟨S262144x3x3, .f32⟩
  | .hbm, ⟨29, _⟩ => ⟨S262144x3x3, .f32⟩
  | .hbm, ⟨30, _⟩ => ⟨S262144x1x3x3, .f32⟩
  | .hbm, ⟨31, _⟩ => ⟨S262144x3x3, .f32⟩
  | .hbm, ⟨32, _⟩ => ⟨S262144x3x3, .f32⟩
  | .hbm, ⟨33, _⟩ => ⟨S262144x1x3x3, .f32⟩
  | .hbm, ⟨34, _⟩ => ⟨S262144x3x3, .f32⟩
  | .hbm, ⟨35, _⟩ => ⟨S262144x3x3, .f32⟩
  | .hbm, ⟨36, _⟩ => ⟨S262144x1x3x3, .f32⟩
  | .hbm, ⟨37, _⟩ => ⟨S262144x3x3, .f32⟩
  | .hbm, ⟨38, _⟩ => ⟨S262144x3x3, .f32⟩
  | .hbm, ⟨39, _⟩ => ⟨S262144x1x3x3, .f32⟩
  | .hbm, ⟨40, _⟩ => ⟨S262144x3x3, .f32⟩
  | .hbm, ⟨41, _⟩ => ⟨S262144x3x3, .f32⟩
  | .hbm, ⟨42, _⟩ => ⟨S262144x1x3x3, .f32⟩
  | .hbm, ⟨43, _⟩ => ⟨S262144x3x3, .f32⟩
  | .hbm, ⟨44, _⟩ => ⟨S262144x3x3, .f32⟩
  | .hbm, ⟨45, _⟩ => ⟨S262144x1x3x3, .f32⟩
  | .hbm, ⟨46, _⟩ => ⟨S262144x3x3, .f32⟩
  | .hbm, ⟨47, _⟩ => ⟨S262144x3x3, .f32⟩
  | .hbm, ⟨48, _⟩ => ⟨S262144x1x3x3, .f32⟩
  | .hbm, ⟨49, _⟩ => ⟨S262144x3x3, .f32⟩
  | .hbm, ⟨50, _⟩ => ⟨S262144x3x3, .f32⟩
  | .hbm, ⟨51, _⟩ => ⟨S262144x1x3x3, .f32⟩
  | .hbm, ⟨52, _⟩ => ⟨S262144x3x3, .f32⟩
  | .hbm, ⟨53, _⟩ => ⟨S262144x3x3, .f32⟩
  | .hbm, ⟨54, _⟩ => ⟨S262144x1x3x3, .f32⟩
  | .hbm, ⟨55, _⟩ => ⟨S262144x3x3, .f32⟩
  | .hbm, ⟨56, _⟩ => ⟨S262144x3x3, .f32⟩
  | .hbm, ⟨57, _⟩ => ⟨S262144x1x3x3, .f32⟩
  | .hbm, ⟨58, _⟩ => ⟨S262144x3x3, .f32⟩
  | .hbm, ⟨59, _⟩ => ⟨S262144x3x3, .f32⟩
  | .hbm, ⟨60, _⟩ => ⟨S262144x1x3x3, .f32⟩
  | .hbm, ⟨61, _⟩ => ⟨S262144x3x3, .f32⟩
  | .hbm, ⟨62, _⟩ => ⟨S262144x3x3, .f32⟩
  | .hbm, ⟨63, _⟩ => ⟨S262144x1x3x3, .f32⟩
  | .hbm, ⟨64, _⟩ => ⟨S262144x3x3, .f32⟩
  | .hbm, ⟨65, _⟩ => ⟨S262144x3x3, .f32⟩
  | .hbm, ⟨66, _⟩ => ⟨S262144x1x3x3, .f32⟩
  | .hbm, ⟨67, _⟩ => ⟨S262144x1x3x3, .f32⟩
  | .hbm, ⟨68, _⟩ => ⟨S262144x1x3x3, .f32⟩
  | .hbm, ⟨69, _⟩ => ⟨S262144x1x3x3, .f32⟩
  | .hbm, ⟨70, _⟩ => ⟨S262144x1x3x3, .f32⟩
  | .hbm, ⟨71, _⟩ => ⟨S262144x1x3x3, .f32⟩
  | .hbm, ⟨72, _⟩ => ⟨S262144x1x3x3, .f32⟩
  | .hbm, ⟨73, _⟩ => ⟨S262144x1x3x3, .f32⟩
  | .hbm, ⟨74, _⟩ => ⟨S262144x1x3x3, .f32⟩
  | .hbm, ⟨75, _⟩ => ⟨S262144x1x3x3, .f32⟩
  | .hbm, ⟨76, _⟩ => ⟨S262144x1x3x3, .f32⟩
  | .hbm, ⟨77, _⟩ => ⟨S262144x1x3x3, .f32⟩
  | .hbm, ⟨78, _⟩ => ⟨S262144x1x3x3, .f32⟩
  | .hbm, ⟨79, _⟩ => ⟨S262144x1x3x3, .f32⟩
  | .hbm, ⟨80, _⟩ => ⟨S262144x1x3x3, .f32⟩
  | .hbm, ⟨81, _⟩ => ⟨S262144x1x3x3, .f32⟩
  | .hbm, ⟨82, _⟩ => ⟨S262144x1x3x3, .f32⟩
  | .hbm, ⟨83, _⟩ => ⟨S262144x1x3x3, .f32⟩
  | .hbm, ⟨84, _⟩ => ⟨S262144x1x3x3, .f32⟩
  | .hbm, ⟨85, _⟩ => ⟨S262144x1x3x3, .f32⟩
  | .hbm, ⟨86, _⟩ => ⟨S262144x1x3x3, .f32⟩
  | .hbm, ⟨87, _⟩ => ⟨S262144x1x3x3, .f32⟩
  | .hbm, ⟨88, _⟩ => ⟨S262144x16x3x3, .f32⟩
  | .hbm, ⟨89, _⟩ => ⟨S262144x6x3x3, .f32⟩
  | .hbm, ⟨90, _⟩ => ⟨S262144x22x3x3, .f32⟩
  | _, _ => ⟨S262144x22x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev main_v47 : Ref sig .tc := ⟨.hbm, 48, rfl⟩
abbrev main_v48 : Ref sig .tc := ⟨.hbm, 49, rfl⟩
abbrev main_v49 : Ref sig .tc := ⟨.hbm, 50, rfl⟩
abbrev main_v50 : Ref sig .tc := ⟨.hbm, 51, rfl⟩
abbrev main_v51 : Ref sig .tc := ⟨.hbm, 52, rfl⟩
abbrev main_v52 : Ref sig .tc := ⟨.hbm, 53, rfl⟩
abbrev main_v53 : Ref sig .tc := ⟨.hbm, 54, rfl⟩
abbrev main_v54 : Ref sig .tc := ⟨.hbm, 55, rfl⟩
abbrev main_v55 : Ref sig .tc := ⟨.hbm, 56, rfl⟩
abbrev main_v56 : Ref sig .tc := ⟨.hbm, 57, rfl⟩
abbrev main_v57 : Ref sig .tc := ⟨.hbm, 58, rfl⟩
abbrev main_v58 : Ref sig .tc := ⟨.hbm, 59, rfl⟩
abbrev main_v59 : Ref sig .tc := ⟨.hbm, 60, rfl⟩
abbrev main_v60 : Ref sig .tc := ⟨.hbm, 61, rfl⟩
abbrev main_v61 : Ref sig .tc := ⟨.hbm, 62, rfl⟩
abbrev main_v62 : Ref sig .tc := ⟨.hbm, 63, rfl⟩
abbrev main_v63 : Ref sig .tc := ⟨.hbm, 64, rfl⟩
abbrev main_v64 : Ref sig .tc := ⟨.hbm, 65, rfl⟩
abbrev main_v65 : Ref sig .tc := ⟨.hbm, 66, rfl⟩
abbrev main_v66 : Ref sig .tc := ⟨.hbm, 67, rfl⟩
abbrev main_v67 : Ref sig .tc := ⟨.hbm, 68, rfl⟩
abbrev main_v68 : Ref sig .tc := ⟨.hbm, 69, rfl⟩
abbrev main_v69 : Ref sig .tc := ⟨.hbm, 70, rfl⟩
abbrev main_v70 : Ref sig .tc := ⟨.hbm, 71, rfl⟩
abbrev main_v71 : Ref sig .tc := ⟨.hbm, 72, rfl⟩
abbrev main_v72 : Ref sig .tc := ⟨.hbm, 73, rfl⟩
abbrev main_v73 : Ref sig .tc := ⟨.hbm, 74, rfl⟩
abbrev main_v74 : Ref sig .tc := ⟨.hbm, 75, rfl⟩
abbrev main_v75 : Ref sig .tc := ⟨.hbm, 76, rfl⟩
abbrev main_v76 : Ref sig .tc := ⟨.hbm, 77, rfl⟩
abbrev main_v77 : Ref sig .tc := ⟨.hbm, 78, rfl⟩
abbrev main_v78 : Ref sig .tc := ⟨.hbm, 79, rfl⟩
abbrev main_v79 : Ref sig .tc := ⟨.hbm, 80, rfl⟩
abbrev main_v80 : Ref sig .tc := ⟨.hbm, 81, rfl⟩
abbrev main_v81 : Ref sig .tc := ⟨.hbm, 82, rfl⟩
abbrev main_v82 : Ref sig .tc := ⟨.hbm, 83, rfl⟩
abbrev main_v83 : Ref sig .tc := ⟨.hbm, 84, rfl⟩
abbrev main_v84 : Ref sig .tc := ⟨.hbm, 85, rfl⟩
abbrev main_v85 : Ref sig .tc := ⟨.hbm, 86, rfl⟩
abbrev main_v86 : Ref sig .tc := ⟨.hbm, 87, rfl⟩
abbrev main_v87 : Ref sig .tc := ⟨.hbm, 88, rfl⟩
abbrev main_v88 : Ref sig .tc := ⟨.hbm, 89, rfl⟩
abbrev main_v89 : Ref sig .tc := ⟨.hbm, 90, rfl⟩

abbrev nD : Nat := 1
abbrev τ : Topo := Topo.v7x

variable {F : FTy → Type} [FloatOps F]

class Facts₀ : Prop where
  slices_S262144x22x3x3_S262144x1x3x3_0_0_0_0 : S262144x22x3x3.Slices ![0, 0, 0, 0] S262144x1x3x3
  shapeCasts_S262144x1x3x3_S262144x3x3 : S262144x1x3x3.ShapeCasts S262144x3x3
  slices_S262144x22x3x3_S262144x1x3x3_0_1_0_0 : S262144x22x3x3.Slices ![0, 1, 0, 0] S262144x1x3x3
  slices_S262144x22x3x3_S262144x1x3x3_0_2_0_0 : S262144x22x3x3.Slices ![0, 2, 0, 0] S262144x1x3x3
  slices_S262144x22x3x3_S262144x1x3x3_0_3_0_0 : S262144x22x3x3.Slices ![0, 3, 0, 0] S262144x1x3x3
  slices_S262144x22x3x3_S262144x1x3x3_0_4_0_0 : S262144x22x3x3.Slices ![0, 4, 0, 0] S262144x1x3x3
  slices_S262144x22x3x3_S262144x1x3x3_0_5_0_0 : S262144x22x3x3.Slices ![0, 5, 0, 0] S262144x1x3x3
  slices_S262144x22x3x3_S262144x1x3x3_0_6_0_0 : S262144x22x3x3.Slices ![0, 6, 0, 0] S262144x1x3x3
  slices_S262144x22x3x3_S262144x1x3x3_0_7_0_0 : S262144x22x3x3.Slices ![0, 7, 0, 0] S262144x1x3x3
  slices_S262144x22x3x3_S262144x1x3x3_0_8_0_0 : S262144x22x3x3.Slices ![0, 8, 0, 0] S262144x1x3x3
  slices_S262144x22x3x3_S262144x1x3x3_0_9_0_0 : S262144x22x3x3.Slices ![0, 9, 0, 0] S262144x1x3x3
  slices_S262144x22x3x3_S262144x1x3x3_0_10_0_0 : S262144x22x3x3.Slices ![0, 10, 0, 0] S262144x1x3x3
  slices_S262144x22x3x3_S262144x1x3x3_0_11_0_0 : S262144x22x3x3.Slices ![0, 11, 0, 0] S262144x1x3x3
  slices_S262144x22x3x3_S262144x1x3x3_0_12_0_0 : S262144x22x3x3.Slices ![0, 12, 0, 0] S262144x1x3x3
  slices_S262144x22x3x3_S262144x1x3x3_0_13_0_0 : S262144x22x3x3.Slices ![0, 13, 0, 0] S262144x1x3x3
  slices_S262144x22x3x3_S262144x1x3x3_0_14_0_0 : S262144x22x3x3.Slices ![0, 14, 0, 0] S262144x1x3x3
  slices_S262144x22x3x3_S262144x1x3x3_0_15_0_0 : S262144x22x3x3.Slices ![0, 15, 0, 0] S262144x1x3x3
  slices_S262144x22x3x3_S262144x1x3x3_0_16_0_0 : S262144x22x3x3.Slices ![0, 16, 0, 0] S262144x1x3x3
  slices_S262144x22x3x3_S262144x1x3x3_0_17_0_0 : S262144x22x3x3.Slices ![0, 17, 0, 0] S262144x1x3x3
  slices_S262144x22x3x3_S262144x1x3x3_0_18_0_0 : S262144x22x3x3.Slices ![0, 18, 0, 0] S262144x1x3x3
  slices_S262144x22x3x3_S262144x1x3x3_0_19_0_0 : S262144x22x3x3.Slices ![0, 19, 0, 0] S262144x1x3x3
  slices_S262144x22x3x3_S262144x1x3x3_0_20_0_0 : S262144x22x3x3.Slices ![0, 20, 0, 0] S262144x1x3x3
  slices_S262144x22x3x3_S262144x1x3x3_0_21_0_0 : S262144x22x3x3.Slices ![0, 21, 0, 0] S262144x1x3x3
  bcast_S262144x3x3_S262144x1x3x3_0_2_3 : S262144x3x3.BroadcastsInDim S262144x1x3x3 (![0, 2, 3] : Fin 3 → Fin S262144x1x3x3.rank)
  concatenates_S262144x1x3x3_S262144x1x3x3_S262144x1x3x3_S262144x1x3x3_S262144x1x3x3_S262144x1x3x3_S262144x1x3x3_S262144x1x3x3_S262144x1x3x3_S262144x1x3x3_S262144x1x3x3_S262144x1x3x3_S262144x1x3x3_S262144x1x3x3_S262144x1x3x3_S262144x1x3x3_S262144x16x3x3_d1 : Shape.Concatenates [S262144x1x3x3, S262144x1x3x3, S262144x1x3x3, S262144x1x3x3, S262144x1x3x3, S262144x1x3x3, S262144x1x3x3, S262144x1x3x3, S262144x1x3x3, S262144x1x3x3, S262144x1x3x3, S262144x1x3x3, S262144x1x3x3, S262144x1x3x3, S262144x1x3x3, S262144x1x3x3] S262144x16x3x3 1
  concatenates_S262144x1x3x3_S262144x1x3x3_S262144x1x3x3_S262144x1x3x3_S262144x1x3x3_S262144x1x3x3_S262144x6x3x3_d1 : Shape.Concatenates [S262144x1x3x3, S262144x1x3x3, S262144x1x3x3, S262144x1x3x3, S262144x1x3x3, S262144x1x3x3] S262144x6x3x3 1
  concatenates_S262144x16x3x3_S262144x6x3x3_S262144x22x3x3_d1 : Shape.Concatenates [S262144x16x3x3, S262144x6x3x3] S262144x22x3x3 1
  dot_S262144x3x3_S262144x3x3_S262144x3x3_2_1_1_2_0_0_wf : DotDims.WF S262144x3x3 S262144x3x3 S262144x3x3 [2] [1] [1] [2] [0] [0]

variable [Facts₀]

def dot_S262144x3x3_S262144x3x3_S262144x3x3_2_1_1_2_0_0 : DotDims S262144x3x3 S262144x3x3 S262144x3x3 where
  lhsContracting := [2]
  rhsContracting := [1]
  lhsNonContracting := [1]
  rhsNonContracting := [2]
  lhsBatch := [0]
  rhsBatch := [0]
  wf := dot_S262144x3x3_S262144x3x3_S262144x3x3_2_1_1_2_0_0_wf

class Facts : Prop extends Facts₀ where

variable [Facts]
-- ==== Proof.Chain.lean ====
/-
  The kinematic chain, as mathematics.

  A body has 22 joints arranged in a tree rooted at joint 0: joint j ≥ 1 has a parent p(j) < j (the table
  `joints` lists the pairs (j, p(j)) for j = 1 … 21, in order). Every joint carries a LOCAL 3×3 matrix L_j,
  and its GLOBAL matrix is the product down the path from the root:  G_0 = L_0,  G_j = G_{p(j)} · L_j.  An
  entry of the product is written as the three-term sum grouped to the left, (a₀·b₀ + a₁·b₁) + a₂·b₂.

  The chain is defined ONCE, over any carrier with a product and a sum, so that the same definition speaks of
  rows of a tile (a vector per matrix entry, the operations taken lane by lane) and of extended reals (one
  batch element). A map that respects the product and the sum commutes with the whole chain (`glob_map`):
  reading every row of a tile at one lane gives the chain of that batch element.

  `G` is the specification of the result array: batch element b, joint j, entry (r, c) of the result is
  entry (r, c) of G_j computed from the 22 local matrices of batch element b.  `flatFn` says the same for an
  array whose 198 = 22·9 matrix entries are laid out row-major along the second axis.
-/
import Idealize.ShloMosaic.PureOps.Ideal
import Idealize.ShloMosaic.Lib.ValueIdx

noncomputable section

namespace Cert.Chain

open Idealize.ShloMosaic Idealize.ShloMosaic.ValueIdx

/-- The pairs (j, p(j)): joint j ≥ 1 and its parent, in the order the joints are computed. Joint 0 is the root. -/
def joints : List (Nat × Nat) :=
  [(1, 0), (2, 0), (3, 0), (4, 1), (5, 2), (6, 3), (7, 4), (8, 5), (9, 6), (10, 7), (11, 8), (12, 9), (13, 9),
   (14, 9), (15, 12), (16, 13), (17, 14), (18, 16), (19, 17), (20, 18), (21, 19)]

section Generic
variable {α : Type} (mul add : α → α → α)

/-- The product of two 3×3 matrices, every entry the sum (a₀·b₀ + a₁·b₁) + a₂·b₂. -/
def mm (A B : Fin 3 → Fin 3 → α) : Fin 3 → Fin 3 → α := fun r c =>
  add (add (mul (A r 0) (B 0 c)) (mul (A r 1) (B 1 c))) (mul (A r 2) (B 2 c))

/-- One more joint: `g` holds the global matrices found so far; joint `jp.1`, whose parent is `jp.2`, gets
    G_p · L_j, and every other joint keeps what it had. -/
def extend (loc : Nat → Fin 3 → Fin 3 → α) (g : Nat → Fin 3 → Fin 3 → α) (jp : Nat × Nat) :
    Nat → Fin 3 → Fin 3 → α :=
  fun i => if i = jp.1 then mm mul add (g jp.2) (loc jp.1) else g i

/-- The global matrix of every joint (of joint 0, the root's local matrix, for an index that is no joint). -/
def glob (loc : Nat → Fin 3 → Fin 3 → α) : Nat → Fin 3 → Fin 3 → α :=
  joints.foldl (extend mul add loc) (fun _ => loc 0)

end Generic

/-! ## A map that respects product and sum commutes with the chain -/

section Hom
variable {α β : Type} (mul add : α → α → α) (mul' add' : β → β → β) (φ : α → β)

/-- A map applied to every entry of every joint's matrix. -/
def lift (g : Nat → Fin 3 → Fin 3 → α) : Nat → Fin 3 → Fin 3 → β := fun j r c => φ (g j r c)

variable (hm : ∀ u v, φ (mul u v) = mul' (φ u) (φ v)) (ha : ∀ u v, φ (add u v) = add' (φ u) (φ v))
include hm ha

theorem lift_extend (loc g : Nat → Fin 3 → Fin 3 → α) (jp : Nat × Nat) :
    lift φ (extend mul add loc g jp) = extend mul' add' (lift φ loc) (lift φ g) jp := by
  funext i r c
  unfold lift extend
  by_cases h : i = jp.1
  · simp only [if_pos h, mm, hm, ha]
  · simp only [if_neg h]

theorem lift_foldl_extend (loc : Nat → Fin 3 → Fin 3 → α) (ps : List (Nat × Nat)) :
    ∀ g : Nat → Fin 3 → Fin 3 → α,
      lift φ (ps.foldl (extend mul add loc) g) = ps.foldl (extend mul' add' (lift φ loc)) (lift φ g) := by
  induction ps with
  | nil => intro g; rfl
  | cons p ps ih =>
    intro g
    rw [List.foldl_cons, List.foldl_cons, ih, lift_extend mul add mul' add' φ hm ha]

/-- Reading the chain through a map that respects product and sum is the chain of what the map reads. -/
theorem glob_map (loc : Nat → Fin 3 → Fin 3 → α) (j : Nat) (r c : Fin 3) :
    φ (glob mul add loc j r c) = glob mul' add' (fun j r c => φ (loc j r c)) j r c :=
  congrFun (congrFun (congrFun (lift_foldl_extend mul add mul' add' φ hm ha loc joints (fun _ => loc 0)) j) r) c

end Hom

/-! ## The specification over the extended reals -/

/-- The global matrices of one batch element from its local matrices, over the extended reals. -/
def globE (x : Nat → Fin 3 → Fin 3 → EReal) : Nat → Fin 3 → Fin 3 → EReal :=
  glob (· * ·) (· + ·) x

/-- An entry of a product, written out. -/
theorem mm_apply (A B : Fin 3 → Fin 3 → EReal) (r c : Fin 3) :
    mm (· * ·) (· + ·) A B r c = A r 0 * B 0 c + A r 1 * B 1 c + A r 2 * B 2 c := rfl

/-- The root's global matrix is its local one. -/
theorem globE_root (x : Nat → Fin 3 → Fin 3 → EReal) : globE x 0 = x 0 := rfl

/-- The local matrices of batch element `b` of the argument array (joint numbers past 21 wrap: they are never read). -/
def rotOf (a : (⟨4, ![262144, 22, 3, 3]⟩ : Shape).Idx → EReal) (b : Fin 262144) :
    Nat → Fin 3 → Fin 3 → EReal := fun j r c => a (ix4 b ⟨j % 22, Nat.mod_lt _ (by decide)⟩ r c)

/-- THE SPECIFICATION: the result array holds, at (b, j, r, c), entry (r, c) of joint j's global matrix of
    batch element b. -/
def G (a : (⟨4, ![262144, 22, 3, 3]⟩ : Shape).Idx → EReal) :
    (⟨4, ![262144, 22, 3, 3]⟩ : Shape).Idx → EReal :=
  fun i => globE (rotOf a (i 0)) (i 1).val (i 2) (i 3)

theorem G_apply (a : (⟨4, ![262144, 22, 3, 3]⟩ : Shape).Idx → EReal) (b : Fin 262144) (j : Fin 22) (r c : Fin 3) :
    G a (ix4 b j r c) = globE (rotOf a b) j.val r c := rfl

/-- Entry (r, c) of joint j sits at position 9·j + 3·r + c of the 198 flattened entries (positions wrap past 197:
    they are never read). -/
def flat (j : Nat) (r c : Fin 3) : Fin 198 := ⟨(9 * j + 3 * r.val + c.val) % 198, Nat.mod_lt _ (by decide)⟩

/-- The local matrices of row `b` of an array whose second axis holds the 198 flattened entries. -/
def rotOfRow {n : Nat} (x : (⟨2, ![n, 198]⟩ : Shape).Idx → EReal) (b : Fin n) :
    Nat → Fin 3 → Fin 3 → EReal := fun j r c => x (ix2 b (flat j r c))

/-- The same specification for a two-axis array (a tile of 4096 batch elements, or all 262144 of them) whose
    second axis holds the 198 flattened entries: at (b, f) the entry ((f mod 9) div 3, f mod 3) of joint
    f div 9 of row b. -/
def flatFn {n : Nat} (x : (⟨2, ![n, 198]⟩ : Shape).Idx → EReal) : (⟨2, ![n, 198]⟩ : Shape).Idx → EReal :=
  fun y => globE (rotOfRow x (y 0)) ((y 1).val / 9)
    ⟨(y 1).val % 9 / 3, by omega⟩ ⟨(y 1).val % 3, by omega⟩

theorem flatFn_apply {n : Nat} (x : (⟨2, ![n, 198]⟩ : Shape).Idx → EReal) (b : Fin n) (j : Fin 22) (r c : Fin 3) :
    flatFn x (ix2 b (flat j.val r c)) = globE (rotOfRow x b) j.val r c := by
  have hlt : 9 * j.val + 3 * r.val + c.val < 198 := by omega
  have hf : (9 * j.val + 3 * r.val + c.val) % 198 = 9 * j.val + 3 * r.val + c.val := Nat.mod_eq_of_lt hlt
  have key : ∀ (j' : Nat) (r' c' : Fin 3), j' = j.val → r'.val = r.val → c'.val = c.val →
      globE (rotOfRow x b) j' r' c' = globE (rotOfRow x b) j.val r c := by
    intro j' r' c' h1 h2 h3
    obtain rfl := h1; obtain rfl := Fin.ext h2; obtain rfl := Fin.ext h3; rfl
  refine key _ _ _ ?_ ?_ ?_
  · show (9 * j.val + 3 * r.val + c.val) % 198 / 9 = j.val
    rw [hf]; omega
  · show (9 * j.val + 3 * r.val + c.val) % 198 % 9 / 3 = r.val
    rw [hf]; omega
  · show (9 * j.val + 3 * r.val + c.val) % 198 % 3 = c.val
    rw [hf]; omega

/-! ## The recurrence, joint by joint -/

section Rec
variable {α : Type} (mul add : α → α → α) (loc : Nat → Fin 3 → Fin 3 → α)

theorem glob_0 : glob mul add loc 0 = loc 0 := rfl
theorem glob_1 : glob mul add loc 1 = mm mul add (glob mul add loc 0) (loc 1) := rfl
theorem glob_5 : glob mul add loc 5 = mm mul add (glob mul add loc 2) (loc 5) := rfl
theorem glob_21 : glob mul add loc 21 = mm mul add (glob mul add loc 19) (loc 21) := rfl

end Rec

end Cert.Chain

end
-- ==== Proof.Tile.lean ====
/-
  What one tile of the kernel computes.

  A tile holds 4096 batch elements, one per row, and along its second axis the 198 = 22·9 entries of their 22
  local matrices, row-major. The body transposes the tile, so that each of the 198 entries becomes a ROW of
  4096 lanes (one lane per batch element); takes the 9 rows of joint 0 as they are; and for joints 1 … 21, in
  order, forms the 9 rows of G_j = G_p · L_j from the 9 rows of the parent and the 9 rows of the joint's local
  matrix, lane by lane, every entry the sum (a₀·b₀ + a₁·b₁) + a₂·b₂. Each joint's 9 rows are stored into
  rows 9j … 9j+8 of a 198 × 4096 scratch; at the end the scratch is read whole, transposed back and written
  to the output tile.

  So the rows are the kinematic chain over the carrier "row of 4096 lanes" (`rows`), the scratch read back is
  ONE function of its index (`scr`), and reading a row at lane b respects product and sum, whence the output
  tile at (b, f) is the chain of batch element b (`Chain.flatFn`).
-/
import proofs.«181221_j50989851738461_1_alg».proof.Proof.Gen.KernelIdeal.Frame
import proofs.«181221_j50989851738461_1_alg».proof.Proof.Chain
import Idealize.ShloMosaic.Lib.Pipeline.Value
import Idealize.ShloMosaic.Lib.Pipeline.FrameBody
import Idealize.ShloMosaic.Lib.ValueIdx

set_option maxRecDepth 16384

noncomputable section

namespace Cert.KernelIdeal.Tile

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Chain

section AnyF
variable {F : FTy → Type} [FloatOps F]

/-- Row n of the transposed tile is a block of it. -/
theorem slices_row (n : Nat) (h : n < 198) : S198x4096.Slices ![n, 0] S1x4096 :=
  ⟨rfl, fun a => match a with
    | ⟨0, _⟩ => by show n + 1 ≤ 198; omega
    | ⟨1, _⟩ => by show 0 + 4096 ≤ 4096; omega⟩

/-- Entry (r, c) of joint j's local matrix, for the whole tile: row 9j + 3r + c of the transposed tile. -/
def locRow (x0 : Vec F S4096x198 .f32) (j : Nat) (r c : Fin 3) : FVec F S1x4096 .f32 :=
  extractStridedSlice S1x4096 ![(9 * j + 3 * r.val + c.val) % 198, 0] (k0_pay3 x0)
    (slices_row _ (Nat.mod_lt _ (by decide)))

/-- Entry (r, c) of joint j's GLOBAL matrix, for the whole tile: the chain over rows, product and sum lane by lane. -/
def rows (x0 : Vec F S4096x198 .f32) : Nat → Fin 3 → Fin 3 → FVec F S1x4096 .f32 :=
  glob mulf addf (locRow x0)

/-- The nine rows of a matrix in row-major order, each with its shape. -/
def nineList (M : Fin 3 → Fin 3 → FVec F S1x4096 .f32) : List ((s : Shape) × (s.Idx → F .f32)) :=
  [⟨S1x4096, M 0 0⟩, ⟨S1x4096, M 0 1⟩, ⟨S1x4096, M 0 2⟩, ⟨S1x4096, M 1 0⟩, ⟨S1x4096, M 1 1⟩, ⟨S1x4096, M 1 2⟩, ⟨S1x4096, M 2 0⟩, ⟨S1x4096, M 2 1⟩, ⟨S1x4096, M 2 2⟩]

/-- The nine rows of a matrix, one under the other. -/
def nine (M : Fin 3 → Fin 3 → FVec F S1x4096 .f32) : FVec F S9x4096 .f32 :=
  shapeCast S9x4096
    (concatenate S9x4096 0 (nineList M)
      concatenates_S1x4096_S1x4096_S1x4096_S1x4096_S1x4096_S1x4096_S1x4096_S1x4096_S1x4096_S9x4096_d0)
    shapeCasts_S9x4096_S9x4096

/-- Joint j's nine rows fit at rows 9j … 9j+8 of the scratch. -/
theorem inb_rows (j : Fin 22) : ∀ a, (![9 * j.val, 0] : Fin 2 → Nat) a + S9x4096.size a ≤ S198x4096.size a :=
  fun a => match a with
    | ⟨0, _⟩ => by show 9 * j.val + 9 ≤ 198; omega
    | ⟨1, _⟩ => by show 0 + 4096 ≤ 4096; omega

/-- The 22 stores into the scratch, last first: joint j's nine rows at rows 9j … 9j+8. -/
def stores (x0 : Vec F S4096x198 .f32) : List (View.Piece (Elt F) S198x4096 .f32) :=
  (List.finRange 22).reverse.map fun j =>
    ⟨Rect.unit ![9 * j.val, 0] S9x4096.size (inb_rows j), nine (rows x0 j.val)⟩

/-- What the body's first load reads from the input tile's memory: the tile. -/
def loaded (arg1 : Memref sig .tc .vmem S4096x198 .f32) (harg1 : arg1.IsWhole) (x0 : Vec F S4096x198 .f32) :
    Vec F S4096x198 .f32 :=
  View.readAt (Elt F) arg1.view (Rect.unit ![0, 0] S4096x198.size inb_S4096x198_S4096x198_0_0).toLoadRect
    (harg1.unread x0)

theorem loaded_eq (arg1 : Memref sig .tc .vmem S4096x198 .f32) (harg1 : arg1.IsWhole) (x0 : Vec F S4096x198 .f32) :
    loaded arg1 harg1 x0 = x0 := by
  unfold loaded
  rw [View.readAt_eq_ld, harg1.read_unread, View.ld_unit_zero (S := S4096x198) (by funext a; fin_cases a <;> rfl)]

/-- The body's stores are those, of the tile it loaded. -/
theorem stores_eq (c : Dev nD) (arg1 : Memref sig .tc .vmem S4096x198 .f32) (harg1 : arg1.IsWhole)
    (x0 : Vec F S4096x198 .f32) :
    kernelRun0_A.sl.HS0_22 c arg1 harg1 x0 = stores (loaded arg1 harg1 x0) := by
  sl_kernel_rfl

/-! ## The scratch read back as one function -/

/-- The scratch after the 22 stores, as ONE function of its index: row f holds entry ((f mod 9) div 3, f mod 3)
    of joint f div 9. -/
def scr (x0 : Vec F S4096x198 .f32) : Vec F S198x4096 .f32 := fun y =>
  rows x0 ((y 0).val / 9) ⟨(y 0).val % 9 / 3, by omega⟩ ⟨(y 0).val % 3, by omega⟩
    (ix2 (0 : Fin 1) (⟨(y 1).val, (y 1).isLt⟩ : Fin 4096))

/-- `scr` at an index whose coordinates are known. -/
theorem scr_apply (x0 : Vec F S4096x198 .f32) (y : S198x4096.Idx) (j : Nat) (r c : Fin 3) (b : Fin 4096)
    (hj : (y 0).val / 9 = j) (hr : (y 0).val % 9 / 3 = r.val) (hc : (y 0).val % 3 = c.val)
    (hb : (y 1).val = b.val) : scr x0 y = rows x0 j r c (ix2 0 b) := by
  have key : ∀ (j' : Nat) (r' c' : Fin 3) (b' : Fin 4096), j' = j → r' = r → c' = c → b' = b →
      rows x0 j' r' c' (ix2 0 b') = rows x0 j r c (ix2 0 b) := by
    rintro _ _ _ _ rfl rfl rfl rfl; rfl
  exact key _ _ _ _ hj (Fin.ext hr) (Fin.ext hc) (Fin.ext hb)

/-- Row 3r + c of nine stacked rows is entry (r, c) of the matrix. -/
theorem nine_apply (M : Fin 3 → Fin 3 → FVec F S1x4096 .f32) (r c : Fin 3) (b : Fin 4096) :
    nine M (ix2 (⟨3 * r.val + c.val, by omega⟩ : Fin 9) b) = M r c (ix2 0 b) := by
  unfold nine
  rw [shapeCast_self]
  have hi : ∀ (k : Fin 9) (d : Fin S1x4096.rank), d.cast (rfl : S1x4096.rank = S9x4096.rank) ≠ (0 : Fin S9x4096.rank) →
      ((ix2 (0 : Fin 1) b : S1x4096.Idx) d).val = ((ix2 k b : S9x4096.Idx) (d.cast rfl)).val := by
    intro k d hd
    match d with
    | ⟨0, _⟩ => exact absurd rfl hd
    | ⟨1, _⟩ => rfl
  match r, c with
  | ⟨0, _⟩, ⟨0, _⟩ =>
    exact concatenate_apply_piece 0 (nineList M) _ (ix2 (⟨0, by decide⟩ : Fin 9) b) 0 (by show 0 < 9; decide)
      S1x4096 (M ⟨0, by decide⟩ ⟨0, by decide⟩) rfl rfl 0 rfl (ix2 0 b) (hi ⟨0, by decide⟩) rfl
  | ⟨0, _⟩, ⟨1, _⟩ =>
    exact concatenate_apply_piece 0 (nineList M) _ (ix2 (⟨1, by decide⟩ : Fin 9) b) 1 (by show 1 < 9; decide)
      S1x4096 (M ⟨0, by decide⟩ ⟨1, by decide⟩) rfl rfl 1 rfl (ix2 0 b) (hi ⟨1, by decide⟩) rfl
  | ⟨0, _⟩, ⟨2, _⟩ =>
    exact concatenate_apply_piece 0 (nineList M) _ (ix2 (⟨2, by decide⟩ : Fin 9) b) 2 (by show 2 < 9; decide)
      S1x4096 (M ⟨0, by decide⟩ ⟨2, by decide⟩) rfl rfl 2 rfl (ix2 0 b) (hi ⟨2, by decide⟩) rfl
  | ⟨1, _⟩, ⟨0, _⟩ =>
    exact concatenate_apply_piece 0 (nineList M) _ (ix2 (⟨3, by decide⟩ : Fin 9) b) 3 (by show 3 < 9; decide)
      S1x4096 (M ⟨1, by decide⟩ ⟨0, by decide⟩) rfl rfl 3 rfl (ix2 0 b) (hi ⟨3, by decide⟩) rfl
  | ⟨1, _⟩, ⟨1, _⟩ =>
    exact concatenate_apply_piece 0 (nineList M) _ (ix2 (⟨4, by decide⟩ : Fin 9) b) 4 (by show 4 < 9; decide)
      S1x4096 (M ⟨1, by decide⟩ ⟨1, by decide⟩) rfl rfl 4 rfl (ix2 0 b) (hi ⟨4, by decide⟩) rfl
  | ⟨1, _⟩, ⟨2, _⟩ =>
    exact concatenate_apply_piece 0 (nineList M) _ (ix2 (⟨5, by decide⟩ : Fin 9) b) 5 (by show 5 < 9; decide)
      S1x4096 (M ⟨1, by decide⟩ ⟨2, by decide⟩) rfl rfl 5 rfl (ix2 0 b) (hi ⟨5, by decide⟩) rfl
  | ⟨2, _⟩, ⟨0, _⟩ =>
    exact concatenate_apply_piece 0 (nineList M) _ (ix2 (⟨6, by decide⟩ : Fin 9) b) 6 (by show 6 < 9; decide)
      S1x4096 (M ⟨2, by decide⟩ ⟨0, by decide⟩) rfl rfl 6 rfl (ix2 0 b) (hi ⟨6, by decide⟩) rfl
  | ⟨2, _⟩, ⟨1, _⟩ =>
    exact concatenate_apply_piece 0 (nineList M) _ (ix2 (⟨7, by decide⟩ : Fin 9) b) 7 (by show 7 < 9; decide)
      S1x4096 (M ⟨2, by decide⟩ ⟨1, by decide⟩) rfl rfl 7 rfl (ix2 0 b) (hi ⟨7, by decide⟩) rfl
  | ⟨2, _⟩, ⟨2, _⟩ =>
    exact concatenate_apply_piece 0 (nineList M) _ (ix2 (⟨8, by decide⟩ : Fin 9) b) 8 (by show 8 < 9; decide)
      S1x4096 (M ⟨2, by decide⟩ ⟨2, by decide⟩) rfl rfl 8 rfl (ix2 0 b) (hi ⟨8, by decide⟩) rfl

/-- Every index of a nine-row block is row 3r + c, lane b, for some entry (r, c). -/
theorem idx_nine (x : S9x4096.Idx) :
    ∃ (r c : Fin 3) (b : Fin 4096), x = ix2 (⟨3 * r.val + c.val, by omega⟩ : Fin 9) b := by
  have hx0 : (x 0).val < 9 := (x 0).isLt
  exact ⟨⟨(x 0).val / 3, by omega⟩, ⟨(x 0).val % 3, by omega⟩, x 1, funext fun a => match a with
    | ⟨0, _⟩ => Fin.ext (by show (x 0).val = 3 * ((x 0).val / 3) + (x 0).val % 3; omega)
    | ⟨1, _⟩ => rfl⟩

/-- Every store's payload is the block of `scr` its rectangle names. -/
theorem stores_piece (x0 : Vec F S4096x198 .f32) :
    ∀ p ∈ stores x0, ∀ x : p.1.shape.Idx, p.2 x = scr x0 (p.1.emb x) := by
  intro p hp
  unfold stores at hp
  rw [List.mem_map] at hp
  obtain ⟨j, -, rfl⟩ := hp
  intro x
  obtain ⟨r, c, b, rfl⟩ := idx_nine x
  show nine (rows x0 j.val) (ix2 (⟨3 * r.val + c.val, by omega⟩ : Fin 9) b)
    = scr x0 ((Rect.unit (s := S198x4096) ![9 * j.val, 0] S9x4096.size (inb_rows j)).emb
        (ix2 (⟨3 * r.val + c.val, by omega⟩ : Fin 9) b))
  rw [nine_apply]
  refine (scr_apply x0 _ j.val r c b ?_ ?_ ?_ ?_).symm
  · show (9 * j.val + 1 * (3 * r.val + c.val)) / 9 = j.val; omega
  · show (9 * j.val + 1 * (3 * r.val + c.val)) % 9 / 3 = r.val; omega
  · show (9 * j.val + 1 * (3 * r.val + c.val)) % 3 = c.val; omega
  · show 0 + 1 * b.val = b.val; omega

/-- The stores cover the scratch: row f lies in the store of joint f div 9. -/
theorem stores_cover (x0 : Vec F S4096x198 .f32) (y : S198x4096.Idx) : ∃ p ∈ stores x0, y ∈ p.1.set := by
  have hy0 : (y 0).val < 198 := (y 0).isLt
  have hy1 : (y 1).val < 4096 := (y 1).isLt
  let j : Fin 22 := ⟨(y 0).val / 9, by omega⟩
  refine ⟨⟨Rect.unit (s := S198x4096) ![9 * j.val, 0] S9x4096.size (inb_rows j), nine (rows x0 j.val)⟩,
    List.mem_map.2 ⟨j, List.mem_reverse.2 (List.mem_finRange j), rfl⟩,
    (Rect.mem_set_unit (s := S198x4096) (off := ![9 * j.val, 0]) (size := S9x4096.size) (inb := inb_rows j)).2 fun a => ?_⟩
  match a with
  | ⟨0, _⟩ => exact ⟨by show 9 * ((y 0).val / 9) ≤ (y 0).val; omega, by show (y 0).val < 9 * ((y 0).val / 9) + 9; omega⟩
  | ⟨1, _⟩ => exact ⟨Nat.zero_le _, by show (y 1).val < 0 + 4096; omega⟩

/-- What the body's last load of the scratch reads: `scr` of the input tile. -/
theorem scratch_read (c : Dev nD) (arg1 : Memref sig .tc .vmem S4096x198 .f32) (harg1 : arg1.IsWhole)
    (arg3 : Memref sig .tc .vmem S198x4096 .f32) (x0 : Vec F S4096x198 .f32) :
    kernelRun0_A.sl.v1234 c arg1 harg1 arg3 x0 = scr x0 := by
  unfold kernelRun0_A.sl.v1234
  rw [View.readCov_eq_canon', stores_eq, loaded_eq]
  show View.ld (View.canon (stores x0)) (Rect.unit ![0, 0] S198x4096.size inb_S198x4096_S198x4096_0_0) = scr x0
  rw [View.ld_unit_zero (S := S198x4096) (by funext a; fin_cases a <;> rfl)]
  funext y
  exact View.canon_apply_of_pieces (scr x0) (stores x0) (stores_piece x0) y (stores_cover x0 y)

/-- The output tile the body leaves: the scratch transposed back. -/
theorem out_tile (c : Dev nD) (i : grid0.Coords) (arg1 : Memref sig .tc .vmem S4096x198 .f32) (harg1 : arg1.IsWhole)
    (arg2 : Memref sig .tc .vmem S4096x198 .f32) (harg2 : arg2.IsWhole) (arg3 : Memref sig .tc .vmem S198x4096 .f32)
    (harg3 : arg3.IsWhole) (x0 : Vec F S4096x198 .f32) :
    out0_A_1 c i arg1 harg1 arg2 harg2 arg3 harg3 x0
      = transpose S4096x198 [1, 0] (scr x0) transposes_S198x4096_p1_0_S4096x198 := by
  unfold out0_A_1
  rw [View.read_writes_eq_canon _ _ _ (cover0_A_1 c i arg1 harg1 arg2 harg2 arg3 harg3 x0)]
  unfold kernelRun0_A
  dsimp only
  rw [View.canon_unit_zero (by funext a; fin_cases a <;> rfl)]
  unfold k0_pay2
  rw [scratch_read]

end AnyF

/-! ## At the extended reals: reading a row at one lane -/

/-- Row (j, r, c) of the transposed tile at lane b is entry 9j + 3r + c of row b of the tile. -/
theorem locRow_at (x : Vec Ideal S4096x198 .f32) (b : Fin 4096) (j : Nat) (r c : Fin 3) :
    locRow x j r c (ix2 0 b) = rotOfRow x b j r c := by
  unfold locRow rotOfRow
  rw [extractStridedSlice_apply _ _ _ (ix2 (0 : Fin 1) b) (ix2 (flat j r c) b) (fun a => match a with
    | ⟨0, _⟩ => by show (9 * j + 3 * r.val + c.val) % 198 = (9 * j + 3 * r.val + c.val) % 198 + 0; omega
    | ⟨1, _⟩ => by show b.val = 0 + b.val; omega)]
  unfold k0_pay3
  rw [transpose_apply [1, 0] _ _ (ix2 (flat j r c) b) (ix2 b (flat j r c)) (fun d => match d with
    | ⟨0, _⟩ => rfl
    | ⟨1, _⟩ => rfl), shapeCast_self]

/-- Entry (r, c) of joint j's global matrix, for the whole tile, read at lane b: the chain of batch element b. -/
theorem rows_at (x : Vec Ideal S4096x198 .f32) (b : Fin 4096) (j : Nat) (r c : Fin 3) :
    rows x j r c (ix2 0 b) = globE (rotOfRow x b) j r c := by
  have h := glob_map (mulf (F := Ideal) (s := S1x4096) (φ := .f32)) addf (· * ·) (· + ·)
    (fun v : FVec Ideal S1x4096 .f32 => v (ix2 0 b)) (fun _ _ => rfl) (fun _ _ => rfl) (locRow x) j r c
  refine h.trans ?_
  have e : (fun j r c => locRow x j r c (ix2 0 b)) = rotOfRow x b := by
    funext j r c; exact locRow_at x b j r c
  rw [e]; rfl

/-- The scratch at (f, b) is the specification of the tile at (b, f). -/
theorem tile_entry (x : Vec Ideal S4096x198 .f32) (b : Fin 4096) (f : Fin 198) :
    scr x (ix2 f b) = flatFn x (ix2 b f) := by
  rw [scr_apply x (ix2 f b) (f.val / 9) ⟨f.val % 9 / 3, by omega⟩ ⟨f.val % 3, by omega⟩ b rfl rfl rfl rfl, rows_at]
  rfl

/-! ## The tile's value at a grid point -/

variable (m : (ℓ : Loc nD τ sig) → Buf (Elt Ideal) ℓ)

/-- The input tile at grid point t. -/
abbrev xblk (c : Dev nD) (t : Fin cfg0.N) : Vec Ideal S4096x198 .f32 := iblk m c 0 t

/-- The output tile after the body at grid point t is the specification of the input tile. -/
theorem block_value (c : Dev nD) (t : Fin cfg0.N) :
    outsAt0 (F := Ideal) m c t = flatFn (xblk m c t) := by
  unfold outsAt0
  rw [out_tile]
  funext y
  obtain ⟨b, f, rfl⟩ : ∃ (b : Fin 4096) (f : Fin 198), y = ix2 b f := ⟨y 0, y 1, eq_ix2 y⟩
  rw [transpose_apply [1, 0] _ _ (ix2 b f) (ix2 f b) (fun d => match d with
    | ⟨0, _⟩ => rfl
    | ⟨1, _⟩ => rfl)]
  exact tile_entry (xblk m c t) b f

end Cert.KernelIdeal.Tile

end
-- ==== Proof.KernelArray.lean ====
/-
  From tiles to the whole array, and through the host operations around the kernel.

  The argument array [262144, 22, 3, 3] is first re-laid as [262144, 198] (row-major: joint j's entry (r, c) at
  column 9j + 3r + c). Grid point t handles rows 4096·t … 4096·t + 4095 of that array: its input tile is that
  block of rows, and its output tile, the specification of the input tile, is written to the same rows of the
  result [262144, 198]. The 64 tiles cover the rows, so the result is the specification of the whole re-laid
  array; re-laying it as [262144, 22, 3, 3] gives, at (b, j, r, c), entry (r, c) of joint j's global matrix of
  batch element b.
-/
import proofs.«181221_j50989851738461_1_alg».proof.Proof.Tile
import Idealize.ShloMosaic.Lib.Pipeline.Value
import Idealize.ShloMosaic.Lib.ValueIdx
import Idealize.ShloMosaic.Lib.StableHlo.Run

set_option maxRecDepth 16384

noncomputable section

namespace Cert.KernelIdeal.Whole

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Tile Cert.Chain

/-! ## The specification works row by row -/

/-- The chain at equal matrices, joints and entries. -/
theorem globE_congr (R R' : Nat → Fin 3 → Fin 3 → EReal) (j j' : Nat) (r r' c c' : Fin 3)
    (hR : R = R') (hj : j = j') (hr : r.val = r'.val) (hc : c.val = c'.val) :
    globE R j r c = globE R' j' r' c' := by
  subst hR; subst hj
  obtain rfl := Fin.ext hr
  obtain rfl := Fin.ext hc
  rfl

/-- The specification of a two-axis array at (b, f) reads row b only: two arrays, of any numbers of rows, that
    agree on a row of each have the same specification along those rows. -/
theorem flatFn_rows {n n' : Nat} (x : (⟨2, ![n, 198]⟩ : Shape).Idx → EReal) (x' : (⟨2, ![n', 198]⟩ : Shape).Idx → EReal)
    (y : (⟨2, ![n, 198]⟩ : Shape).Idx) (y' : (⟨2, ![n', 198]⟩ : Shape).Idx)
    (h1 : (y 1).val = (y' 1).val) (hrow : ∀ f : Fin 198, x (ix2 (y 0) f) = x' (ix2 (y' 0) f)) :
    flatFn x y = flatFn x' y' := by
  unfold flatFn
  refine globE_congr _ _ _ _ _ _ _ _ ?_ ?_ ?_ ?_
  · funext j r c
    exact hrow (flat j r c)
  · rw [h1]
  · show (y 1).val % 9 / 3 = (y' 1).val % 9 / 3
    rw [h1]
  · show (y 1).val % 3 = (y' 1).val % 3
    rw [h1]

variable (m : (ℓ : Loc nD τ sig) → Buf (Elt Ideal) ℓ) (ρ : Dev nD → PrngReg)

/-! ## The arrays around the region -/

/-- The re-laid argument [262144, 198], as the region finds it. -/
abbrev xarr (c : Dev nD) : Vec Ideal S262144x198 .f32 := V m c main_v0

/-- It is the argument array re-laid by the host before the region. -/
theorem xarr_eq (c : Dev nD) :
    xarr m c = shapeCast S262144x198 (m ((c.tc : Thread nD τ).loc main_arg0)) shapeCasts_S262144x22x3x3_S262144x198 := by
  show StableHlo.after hostOps0 (fun b => m (c, b)) (Proc.devRef .tc main_v0) = _
  after_results
  rfl

/-! ## What a point writes back -/

/-- The two windows' index maps over the grid: at point t both are at block row t, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Point t writes back rows 4096·t … 4096·t + 4095 of the specification of the whole re-laid array. -/
theorem flushed_eq (c : Dev nD) (t : Fin cfg0.N) :
    (dats m 0 c).flushed 1 t = ((cfg0.win 1).blk t).view.read (Elt Ideal) (flatFn (xarr m c)) := by
  show (cfg0.win 1).cut (grid0.coords t) ((dats m 0 c).after 1 t) = _
  rw [after0_1, block_value]
  obtain ⟨e0, e1, e2, e3⟩ := idx_facts t
  funext y
  show flatFn (xblk m c t) y = flatFn (xarr m c) (((cfg0.win 1).blk t).view.emb y)
  refine flatFn_rows (xblk m c t) (xarr m c) y (((cfg0.win 1).blk t).view.emb y) ?_ ?_
  · show (y 1).val = win0_1.index t (1 : Fin 2) * 198 + 1 * (y 1).val
    rw [e3]; omega
  · intro f
    show V m c main_v0 (((cfg0.win 0).blk t).view.emb (ix2 (y 0) f)) = V m c main_v0 (ix2 ((((cfg0.win 1).blk t).view.emb y) 0) f)
    refine congrArg (V m c main_v0) (funext fun a => Fin.ext ?_)
    match a with
    | ⟨0, _⟩ =>
      show win0_0.index t (0 : Fin 2) * 4096 + 1 * (y 0).val = win0_1.index t (0 : Fin 2) * 4096 + 1 * (y 0).val
      rw [e0, e2]
    | ⟨1, _⟩ =>
      show win0_0.index t (1 : Fin 2) * 198 + 1 * f.val = f.val
      rw [e1]; omega

/-! ## The result array after the run -/

/-- An index of the result array is in point t's block iff each coordinate is in the block's range on its axis. -/
theorem mem_blk (t : Fin cfg0.N) (i : S262144x198.Idx) :
    i ∈ ((cfg0.win 1).blk t).view.set ↔ ∀ a : Fin 2, win0_1.index t a * S4096x198.size a ≤ (i a).val
      ∧ (i a).val < win0_1.index t a * S4096x198.size a + S4096x198.size a := by
  show i ∈ ((View.whole main_v1).slice (win0_1.rect t)).set ↔ _
  rw [View.set_slice_whole, Rect.mem_set_unit]
  exact Iff.rfl

/-- Row R is in the block of point R div 4096: the 64 blocks of 4096 rows cover the 262144 rows. -/
theorem cover (i : S262144x198.Idx) :
    ∃ t : Fin cfg0.N, (cfg0.win 1).flush t = true ∧ i ∈ ((cfg0.win 1).blk t).view.set := by
  have hi0 : (i 0).val < 262144 := (i 0).isLt
  have hi1 : (i 1).val < 198 := (i 1).isLt
  have hN : cfg0.N = 64 := N_0
  obtain ⟨t, ht⟩ : ∃ t : Fin cfg0.N, t.val = (i 0).val / 4096 := ⟨⟨(i 0).val / 4096, by rw [hN]; omega⟩, rfl⟩
  obtain ⟨e0, e1, e2, e3⟩ := idx_facts t
  refine ⟨t, flush0_1 t, ?_⟩
  rw [mem_blk]
  intro a
  match a with
  | ⟨0, _⟩ =>
    show win0_1.index t (0 : Fin 2) * 4096 ≤ (i 0).val ∧ (i 0).val < win0_1.index t (0 : Fin 2) * 4096 + 4096
    rw [e2, ht]; omega
  | ⟨1, _⟩ =>
    show win0_1.index t (1 : Fin 2) * 198 ≤ (i 1).val ∧ (i 1).val < win0_1.index t (1 : Fin 2) * 198 + 198
    rw [e3]; omega

/-- The result array [262144, 198] after the run is the specification of the whole re-laid argument. -/
theorem final (c : Dev nD) : (dats m 0 c).arrAt 1 cfg0.N = flatFn (xarr m c) :=
  (dats m 0 c).arrAt_eq_of_cover 1 (flatFn (xarr m c)) (fun t _ => flushed_eq m c t) cover

/-! ## The host operation after the region -/

/-- The last array is the result array re-laid as [262144, 22, 3, 3]. -/
theorem tail_eq (c : Dev nD) :
    Pipeline.afterTail₀ cfgs (dats m) 0 (V0 m) [hostOps1] c main_v2
      = shapeCast S262144x22x3x3 (flatFn (xarr m c)) shapeCasts_S262144x198_S262144x22x3x3 := by
  unfold Pipeline.afterTail₀
  show StableHlo.after hostOps1 _ (Proc.devRef .tc main_v2) = _
  after_results
  have e : Pipeline.withArrays (cfgs 0).spec c (V0 m c) (fun w => (dats m 0 c).arrAt w (cfgs 0).N)
      (Proc.devRef .tc main_v1) = flatFn (xarr m c) :=
    (Pipeline.withArrays_arr spec0 launch0.win.arr_inj c (V0 m c) (fun w => (dats m 0 c).arrAt w cfg0.N) 1).trans
      (final m c)
  rw [e]
  rfl

/-! ## The two re-layings, index by index -/

/-- The row-major position of (b, f) in [262144, 198]. -/
theorem pos2 (b : Fin 262144) (f : Fin 198) : (S262144x198.rowMajor (ix2 b f)).val = b.val * 198 + f.val := by
  rw [Shape.rowMajor_val_two]; rfl

/-- The row-major position of (b, j, r, c) in [262144, 22, 3, 3]. -/
theorem pos4 (b : Fin 262144) (j : Fin 22) (r c : Fin 3) :
    (S262144x22x3x3.rowMajor (ix4 b j r c)).val = ((b.val * 22 + j.val) * 3 + r.val) * 3 + c.val := by
  rw [Shape.rowMajor_val_four]; rfl

/-- Column 9j + 3r + c of row b and entry (r, c) of joint j of batch element b are at the same row-major position. -/
theorem pos_eq (b : Fin 262144) (j : Fin 22) (r c : Fin 3) (f : Fin 198) (hf : f.val = 9 * j.val + 3 * r.val + c.val) :
    (S262144x198.rowMajor (ix2 b f)).val = (S262144x22x3x3.rowMajor (ix4 b j r c)).val := by
  rw [pos2, pos4, hf]; omega

/-- Re-laying the argument, taking the specification row by row and re-laying back is the specification. -/
theorem relaid (a : S262144x22x3x3.Idx → EReal) :
    shapeCast S262144x22x3x3 (flatFn (shapeCast S262144x198 a shapeCasts_S262144x22x3x3_S262144x198))
      shapeCasts_S262144x198_S262144x22x3x3 = G a := by
  funext i
  obtain ⟨b, j, r, c, rfl⟩ : ∃ (b : Fin 262144) (j : Fin 22) (r c : Fin 3), i = ix4 b j r c := ⟨i 0, i 1, i 2, i 3, eq_ix4 i⟩
  have hj : j.val < 22 := j.isLt
  have hr : r.val < 3 := r.isLt
  have hc : c.val < 3 := c.isLt
  rw [G_apply]
  refine (shapeCast_apply _ _ (ix4 b j r c) (ix2 b (flat j.val r c)) (pos_eq b j r c _ ?_)).trans ?_
  · show (9 * j.val + 3 * r.val + c.val) % 198 = 9 * j.val + 3 * r.val + c.val
    omega
  rw [flatFn_apply]
  refine globE_congr _ _ _ _ _ _ _ _ ?_ rfl rfl rfl
  funext j' r' c'
  have hr' : r'.val < 3 := r'.isLt
  have hc' : c'.val < 3 := c'.isLt
  show shapeCast S262144x198 a shapeCasts_S262144x22x3x3_S262144x198 (ix2 b (flat j' r' c'))
    = a (ix4 b ⟨j' % 22, Nat.mod_lt _ (by decide)⟩ r' c')
  refine shapeCast_apply _ _ _ _ (pos_eq b ⟨j' % 22, Nat.mod_lt _ (by decide)⟩ r' c' (flat j' r' c') ?_).symm
  show (9 * j' + 3 * r'.val + c'.val) % 198 = 9 * (j' % 22) + 3 * r'.val + c'.val
  omega

/-! ## The run -/

/-- The kernel's run ends with the specification of its argument in the result array, the argument unchanged. -/
theorem run_G :
    θ_run defs (onTc (τ := τ) (main (F := Ideal))) ⟨m, fun _ => 0, ρ⟩ (fun r => ∀ c : Dev nD,
      r.2.mem ((c.tc : Thread nD τ).loc main_v2) = G (m ((c.tc : Thread nD τ).loc main_arg0))
      ∧ r.2.mem ((c.tc : Thread nD τ).loc main_arg0) = m ((c.tc : Thread nD τ).loc main_arg0)) := by
  refine (θ_run defs _ _).mono (fun r h c => ⟨?_, ?_⟩) (run_main m ρ)
  · refine ((h c).2 main_v2 (Pipeline.mem_restRefs_of main_v2 (by decide) (by decide))).trans ?_
    rw [tail_eq, xarr_eq]
    exact relaid _
  · exact ((h c).2 main_arg0 (Pipeline.mem_restRefs_of main_arg0 (by decide) (by decide))).trans (W_main_arg0 m (dats m) c)

end Cert.KernelIdeal.Whole

end
-- ==== Proof.RefLocal.lean ====
/-
  The reference, read at an index: where its local matrices and its result come from.

  Joint j's local matrices are cut out of the argument array by a slice of extent one along the joint axis
  (offset j) followed by a reshape that drops that unit axis.  A reshape keeps row-major positions, and the
  positions of (b, r, c) in [B, 3, 3] and of (b, 0, r, c) in [B, 1, 3, 3] are both (3·b + r)·3 + c; the slice
  shifts the joint coordinate by j.  So entry (r, c) of batch element b is the argument at (b, j, r, c).

  The result array stacks the 22 global matrices along the joint axis, in two stages: joints 0 … 15 are joined
  into a [B, 16, 3, 3] array, joints 16 … 21 into a [B, 6, 3, 3] array, and the two are joined.  Each piece of
  the first two joins is a global buffer [B, 3, 3] with a unit joint axis inserted.  Joint coordinate j < 16
  falls in the first array at j, whose j-th piece is joint j; j ≥ 16 falls in the second array at j − 16, whose
  (j − 16)-th piece is joint j.  So element (b, j, r, c) of the result is entry (r, c) of joint j's global matrix.
-/
import proofs.«181221_j50989851738461_1_alg».proof.Proof.Gen.ReferenceIdeal.Read
import proofs.«181221_j50989851738461_1_alg».proof.Proof.Chain
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- The buffer that holds joint j's global matrices (for all batch elements), as a function of the argument. -/
def globBuf (a : (⟨S262144x22x3x3, .f32⟩ : BufTy).Contents (Elt Ideal)) : Nat → S262144x3x3.Idx → EReal
  | 0 => val_main_v1 (F := Ideal) a
  | 1 => val_main_v4 (F := Ideal) a
  | 2 => val_main_v7 (F := Ideal) a
  | 3 => val_main_v10 (F := Ideal) a
  | 4 => val_main_v13 (F := Ideal) a
  | 5 => val_main_v16 (F := Ideal) a
  | 6 => val_main_v19 (F := Ideal) a
  | 7 => val_main_v22 (F := Ideal) a
  | 8 => val_main_v25 (F := Ideal) a
  | 9 => val_main_v28 (F := Ideal) a
  | 10 => val_main_v31 (F := Ideal) a
  | 11 => val_main_v34 (F := Ideal) a
  | 12 => val_main_v37 (F := Ideal) a
  | 13 => val_main_v40 (F := Ideal) a
  | 14 => val_main_v43 (F := Ideal) a
  | 15 => val_main_v46 (F := Ideal) a
  | 16 => val_main_v49 (F := Ideal) a
  | 17 => val_main_v52 (F := Ideal) a
  | 18 => val_main_v55 (F := Ideal) a
  | 19 => val_main_v58 (F := Ideal) a
  | 20 => val_main_v61 (F := Ideal) a
  | 21 => val_main_v64 (F := Ideal) a
  | _ => val_main_v1 (F := Ideal) a

/-- The buffer that holds joint j's local matrices (for all batch elements), as a function of the argument. -/
def locBuf (a : (⟨S262144x22x3x3, .f32⟩ : BufTy).Contents (Elt Ideal)) : Nat → S262144x3x3.Idx → EReal
  | 0 => val_main_v1 (F := Ideal) a
  | 1 => val_main_v3 (F := Ideal) a
  | 2 => val_main_v6 (F := Ideal) a
  | 3 => val_main_v9 (F := Ideal) a
  | 4 => val_main_v12 (F := Ideal) a
  | 5 => val_main_v15 (F := Ideal) a
  | 6 => val_main_v18 (F := Ideal) a
  | 7 => val_main_v21 (F := Ideal) a
  | 8 => val_main_v24 (F := Ideal) a
  | 9 => val_main_v27 (F := Ideal) a
  | 10 => val_main_v30 (F := Ideal) a
  | 11 => val_main_v33 (F := Ideal) a
  | 12 => val_main_v36 (F := Ideal) a
  | 13 => val_main_v39 (F := Ideal) a
  | 14 => val_main_v42 (F := Ideal) a
  | 15 => val_main_v45 (F := Ideal) a
  | 16 => val_main_v48 (F := Ideal) a
  | 17 => val_main_v51 (F := Ideal) a
  | 18 => val_main_v54 (F := Ideal) a
  | 19 => val_main_v57 (F := Ideal) a
  | 20 => val_main_v60 (F := Ideal) a
  | 21 => val_main_v63 (F := Ideal) a
  | _ => val_main_v1 (F := Ideal) a

/-! ## A slice of extent one along the joint axis, then the unit axis dropped -/

/-- The slice of the argument at joint `n`, reshaped to [B, 3, 3], read at (b, r, c), is the argument at
    (b, n, r, c): the reshape reads the slice at (b, 0, r, c), the same row-major position, and the slice shifts
    the joint coordinate by its offset `n`. -/
theorem sliceCast_apply {α : Type} (n : Nat) (hn : n < 22) (x : S262144x22x3x3.Idx → α) (b : Fin 262144) (r c : Fin 3)
    (hs : S262144x22x3x3.Slices ![0, n, 0, 0] S262144x1x3x3 := by decide)
    (hc : S262144x1x3x3.ShapeCasts S262144x3x3 := by decide) :
    shapeCast S262144x3x3 (extractStridedSlice S262144x1x3x3 ![0, n, 0, 0] x hs) hc (ix3 b r c)
      = x (ix4 b ⟨n, hn⟩ r c) := by
  refine (shapeCast_apply _ hc (ix3 b r c) (ix4 b (0 : Fin 1) r c) ?_).trans ?_
  · rewrite [Shape.rowMajor_val_four, Shape.rowMajor_val_three]
    show ((b.val * 1 + 0) * 3 + r.val) * 3 + c.val = (b.val * 3 + r.val) * 3 + c.val
    omega
  · exact extractStridedSlice_apply ![0, n, 0, 0] x hs (ix4 b (0 : Fin 1) r c) (ix4 b ⟨n, hn⟩ r c) (fun a => match a with
      | ⟨0, _⟩ => by show b.val = 0 + b.val; omega
      | ⟨1, _⟩ => by show n = n + 0; omega
      | ⟨2, _⟩ => by show r.val = 0 + r.val; omega
      | ⟨3, _⟩ => by show c.val = 0 + c.val; omega)

/-- Joint j's local matrix of batch element b, entry (r, c), is the argument at (b, j, r, c). -/
theorem loc_read (a : (⟨S262144x22x3x3, .f32⟩ : BufTy).Contents (Elt Ideal)) (j : Fin 22) (b : Fin 262144) (r c : Fin 3) :
    locBuf a j.val (ix3 b r c) = a (ix4 b j r c) :=
  match j with
  | ⟨0, h⟩ => sliceCast_apply 0 h a b r c
  | ⟨1, h⟩ => sliceCast_apply 1 h a b r c
  | ⟨2, h⟩ => sliceCast_apply 2 h a b r c
  | ⟨3, h⟩ => sliceCast_apply 3 h a b r c
  | ⟨4, h⟩ => sliceCast_apply 4 h a b r c
  | ⟨5, h⟩ => sliceCast_apply 5 h a b r c
  | ⟨6, h⟩ => sliceCast_apply 6 h a b r c
  | ⟨7, h⟩ => sliceCast_apply 7 h a b r c
  | ⟨8, h⟩ => sliceCast_apply 8 h a b r c
  | ⟨9, h⟩ => sliceCast_apply 9 h a b r c
  | ⟨10, h⟩ => sliceCast_apply 10 h a b r c
  | ⟨11, h⟩ => sliceCast_apply 11 h a b r c
  | ⟨12, h⟩ => sliceCast_apply 12 h a b r c
  | ⟨13, h⟩ => sliceCast_apply 13 h a b r c
  | ⟨14, h⟩ => sliceCast_apply 14 h a b r c
  | ⟨15, h⟩ => sliceCast_apply 15 h a b r c
  | ⟨16, h⟩ => sliceCast_apply 16 h a b r c
  | ⟨17, h⟩ => sliceCast_apply 17 h a b r c
  | ⟨18, h⟩ => sliceCast_apply 18 h a b r c
  | ⟨19, h⟩ => sliceCast_apply 19 h a b r c
  | ⟨20, h⟩ => sliceCast_apply 20 h a b r c
  | ⟨21, h⟩ => sliceCast_apply 21 h a b r c
  | ⟨n + 22, h⟩ => absurd h (by omega)

/-! ## The stacking along the joint axis -/

/-- A unit joint axis inserted into a [B, 3, 3] buffer: the new array at (b, 0, r, c) is the buffer at (b, r, c). -/
theorem unitAxis_apply {α : Type} (y : S262144x3x3.Idx → α) (b : Fin 262144) (r c : Fin 3)
    (h : S262144x3x3.BroadcastsInDim S262144x1x3x3 (![0, 2, 3] : Fin 3 → Fin S262144x1x3x3.rank) := by decide) :
    broadcastInDim S262144x1x3x3 ![0, 2, 3] h y (ix4 b (0 : Fin 1) r c) = y (ix3 b r c) :=
  broadcastInDim_apply _ h y (ix4 b (0 : Fin 1) r c) (ix3 b r c) (fun a => match a with
    | ⟨0, _⟩ => by show b.val = if (262144 : Nat) = 1 then 0 else b.val; rw [if_neg (by decide)]
    | ⟨1, _⟩ => by show r.val = if (3 : Nat) = 1 then 0 else r.val; rw [if_neg (by decide)]
    | ⟨2, _⟩ => by show c.val = if (3 : Nat) = 1 then 0 else c.val; rw [if_neg (by decide)])

/-- Arrays [B, 1, 3, 3] joined along the joint axis into [B, N, 3, 3]: every piece has extent one, so the k pieces
    before piece k take up the joint coordinates below k, and the join at (b, k, r, c) is piece k at (b, 0, r, c). -/
theorem stackUnit_apply {α : Type} {N : Nat} (xs : List ((s : Shape) × (s.Idx → α)))
    (h : Shape.Concatenates (xs.map (·.1)) (⟨4, ![262144, N, 3, 3]⟩ : Shape) 1)
    (hss : xs.map (·.1) = List.replicate xs.length S262144x1x3x3)
    (k : Nat) (x₁ : S262144x1x3x3.Idx → α) (hxk : xs[k]? = some ⟨S262144x1x3x3, x₁⟩)
    (hkN : k < N) (b : Fin 262144) (r c : Fin 3) :
    concatenate (⟨4, ![262144, N, 3, 3]⟩ : Shape) 1 xs h (ix4 b ⟨k, hkN⟩ r c) = x₁ (ix4 b (0 : Fin 1) r c) := by
  have hk : ∃ hk : k < xs.length, xs[k] = ⟨S262144x1x3x3, x₁⟩ := List.getElem?_eq_some_iff.mp hxk
  have hpre : (((xs.take k).map (·.1)).map fun s : Shape =>
      if h : s.rank = (⟨4, ![262144, N, 3, 3]⟩ : Shape).rank then s.size ((1 : Fin 4).cast h.symm) else 0).sum = k := by
    rw [List.map_take, hss, List.take_replicate, List.map_replicate, Nat.min_eq_left (Nat.le_of_lt hk.1)]
    show (List.replicate k (1 : Nat)).sum = k
    rw [List.sum_replicate_nat, Nat.mul_one]
  exact concatenate_apply_piece 1 xs h (ix4 b ⟨k, hkN⟩ r c) k hk.1 S262144x1x3x3 x₁ hk.2 rfl k hpre (ix4 b (0 : Fin 1) r c)
    (fun a ha => match a, ha with
      | ⟨0, _⟩, _ => rfl
      | ⟨1, _⟩, ha => absurd rfl ha
      | ⟨2, _⟩, _ => rfl
      | ⟨3, _⟩, _ => rfl)
    (by show k + 0 = k; omega)

/-- The last join, at a joint coordinate below 16: the first of its two arrays at the same index. -/
theorem v89_lo (a : (⟨S262144x22x3x3, .f32⟩ : BufTy).Contents (Elt Ideal)) (b : Fin 262144) (k : Nat) (hk : k < 16) (r c : Fin 3) :
    val_main_v89 (F := Ideal) a (ix4 b ⟨k, by omega⟩ r c) = val_main_v87 (F := Ideal) a (ix4 b ⟨k, hk⟩ r c) := by
  unfold val_main_v89
  generalize val_main_v87 (F := Ideal) a = y1
  generalize val_main_v88 (F := Ideal) a = y2
  exact concatenate_pair_apply_left (t := S262144x22x3x3) (s₁ := S262144x16x3x3) (s₂ := S262144x6x3x3) 1 y1 y2
    concatenates_S262144x16x3x3_S262144x6x3x3_S262144x22x3x3_d1 (ix4 b (⟨k, by omega⟩ : Fin 22) r c) rfl
    (ix4 b (⟨k, hk⟩ : Fin 16) r c) (fun a' => match a' with
    | ⟨0, _⟩ => rfl
    | ⟨1, _⟩ => rfl
    | ⟨2, _⟩ => rfl
    | ⟨3, _⟩ => rfl)

/-- The last join, at a joint coordinate 16 + k: the second of its two arrays at joint coordinate k. -/
theorem v89_hi (a : (⟨S262144x22x3x3, .f32⟩ : BufTy).Contents (Elt Ideal)) (b : Fin 262144) (k : Nat) (hk : k < 6) (r c : Fin 3) :
    val_main_v89 (F := Ideal) a (ix4 b ⟨16 + k, by omega⟩ r c) = val_main_v88 (F := Ideal) a (ix4 b ⟨k, hk⟩ r c) := by
  unfold val_main_v89
  generalize val_main_v87 (F := Ideal) a = y1
  generalize val_main_v88 (F := Ideal) a = y2
  exact concatenate_pair_apply_right (t := S262144x22x3x3) (s₁ := S262144x16x3x3) (s₂ := S262144x6x3x3) 1 y1 y2
    concatenates_S262144x16x3x3_S262144x6x3x3_S262144x22x3x3_d1 (ix4 b (⟨16 + k, by omega⟩ : Fin 22) r c) rfl rfl
    (ix4 b (⟨k, hk⟩ : Fin 6) r c)
    (fun a' ha' => match a', ha' with
      | ⟨0, _⟩, _ => rfl
      | ⟨1, _⟩, ha' => absurd rfl ha'
      | ⟨2, _⟩, _ => rfl
      | ⟨3, _⟩, _ => rfl)
    (by show k + 16 = 16 + k; omega)

/-- The first join holds, at joint coordinate k < 16, joint k's global matrices. -/
theorem v87_read (a : (⟨S262144x22x3x3, .f32⟩ : BufTy).Contents (Elt Ideal)) (b : Fin 262144) (k : Nat) (hk : k < 16) (r c : Fin 3) :
    val_main_v87 (F := Ideal) a (ix4 b ⟨k, hk⟩ r c) = globBuf a k (ix3 b r c) :=
  match k, hk with
  | 0, _ => (stackUnit_apply _ _ rfl 0 _ rfl (by decide) b r c).trans (unitAxis_apply _ b r c)
  | 1, _ => (stackUnit_apply _ _ rfl 1 _ rfl (by decide) b r c).trans (unitAxis_apply _ b r c)
  | 2, _ => (stackUnit_apply _ _ rfl 2 _ rfl (by decide) b r c).trans (unitAxis_apply _ b r c)
  | 3, _ => (stackUnit_apply _ _ rfl 3 _ rfl (by decide) b r c).trans (unitAxis_apply _ b r c)
  | 4, _ => (stackUnit_apply _ _ rfl 4 _ rfl (by decide) b r c).trans (unitAxis_apply _ b r c)
  | 5, _ => (stackUnit_apply _ _ rfl 5 _ rfl (by decide) b r c).trans (unitAxis_apply _ b r c)
  | 6, _ => (stackUnit_apply _ _ rfl 6 _ rfl (by decide) b r c).trans (unitAxis_apply _ b r c)
  | 7, _ => (stackUnit_apply _ _ rfl 7 _ rfl (by decide) b r c).trans (unitAxis_apply _ b r c)
  | 8, _ => (stackUnit_apply _ _ rfl 8 _ rfl (by decide) b r c).trans (unitAxis_apply _ b r c)
  | 9, _ => (stackUnit_apply _ _ rfl 9 _ rfl (by decide) b r c).trans (unitAxis_apply _ b r c)
  | 10, _ => (stackUnit_apply _ _ rfl 10 _ rfl (by decide) b r c).trans (unitAxis_apply _ b r c)
  | 11, _ => (stackUnit_apply _ _ rfl 11 _ rfl (by decide) b r c).trans (unitAxis_apply _ b r c)
  | 12, _ => (stackUnit_apply _ _ rfl 12 _ rfl (by decide) b r c).trans (unitAxis_apply _ b r c)
  | 13, _ => (stackUnit_apply _ _ rfl 13 _ rfl (by decide) b r c).trans (unitAxis_apply _ b r c)
  | 14, _ => (stackUnit_apply _ _ rfl 14 _ rfl (by decide) b r c).trans (unitAxis_apply _ b r c)
  | 15, _ => (stackUnit_apply _ _ rfl 15 _ rfl (by decide) b r c).trans (unitAxis_apply _ b r c)
  | n + 16, h => absurd h (by omega)

/-- The second join holds, at joint coordinate k < 6, joint (16 + k)'s global matrices. -/
theorem v88_read (a : (⟨S262144x22x3x3, .f32⟩ : BufTy).Contents (Elt Ideal)) (b : Fin 262144) (k : Nat) (hk : k < 6) (r c : Fin 3) :
    val_main_v88 (F := Ideal) a (ix4 b ⟨k, hk⟩ r c) = globBuf a (16 + k) (ix3 b r c) :=
  match k, hk with
  | 0, _ => (stackUnit_apply _ _ rfl 0 _ rfl (by decide) b r c).trans (unitAxis_apply _ b r c)
  | 1, _ => (stackUnit_apply _ _ rfl 1 _ rfl (by decide) b r c).trans (unitAxis_apply _ b r c)
  | 2, _ => (stackUnit_apply _ _ rfl 2 _ rfl (by decide) b r c).trans (unitAxis_apply _ b r c)
  | 3, _ => (stackUnit_apply _ _ rfl 3 _ rfl (by decide) b r c).trans (unitAxis_apply _ b r c)
  | 4, _ => (stackUnit_apply _ _ rfl 4 _ rfl (by decide) b r c).trans (unitAxis_apply _ b r c)
  | 5, _ => (stackUnit_apply _ _ rfl 5 _ rfl (by decide) b r c).trans (unitAxis_apply _ b r c)
  | n + 6, h => absurd h (by omega)

/-- The result array at (b, j, r, c) is entry (r, c) of joint j's global matrix of batch element b. -/
theorem stack_read (a : (⟨S262144x22x3x3, .f32⟩ : BufTy).Contents (Elt Ideal)) (b : Fin 262144) (j : Fin 22) (r c : Fin 3) :
    val_main_v89 (F := Ideal) a (ix4 b j r c) = globBuf a j.val (ix3 b r c) := by
  obtain ⟨jv, hjv⟩ := j
  by_cases hj : jv < 16
  · exact (v89_lo a b jv hj r c).trans (v87_read a b jv hj r c)
  · obtain ⟨k, rfl⟩ : ∃ k, jv = 16 + k := ⟨jv - 16, by omega⟩
    exact (v89_hi a b k (by omega) r c).trans (v88_read a b k (by omega) r c)

end Cert.ReferenceIdeal.RefValue

end
-- ==== Proof.RefProducts.lean ====
/-
  The reference's global matrices are the chain's: joint by joint, each matrix product read at an index is the
  three-term sum of the chain's recurrence, the parent's global matrix and the joint's local matrix being what
  the chain takes them to be.

  The reference computes joint j's global matrices, for all batch elements at once, as ONE batched product of
  3×3 matrices: (the buffer of the parent's global matrices) · (the buffer of joint j's local matrices), batch
  axis 0, the left operand's axis 2 contracted with the right operand's axis 1.  Read at batch element b and
  entry (r, c) that product is  Σ_k P(b, r, k) · L(b, k, c)  (`prod_read`), and written out over k = 0, 1, 2 it is
  the sum (a₀·b₀ + a₁·b₁) + a₂·b₂ of the chain's recurrence G_j = G_{p(j)} · L_j  (`joint_read`).  The 21 products
  are then read one after the other, in the order of the joints, each from its parent's (`read_1` … `read_21`);
  the root's global matrix is its local one (`read_0`).
-/
import proofs.«181221_j50989851738461_1_alg».proof.Proof.RefLocal
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Chain

/-! ## One batched 3×3 product, read at an index -/

/-- A batched product of 3×3 matrices, read at batch element b and entry (r, c): the sum over the contracted axis,
    its three terms written out.  The left operand is read at (b, r, k), the right one at (b, k, c). -/
theorem prod_read (l m : (⟨S262144x3x3, .f32⟩ : BufTy).Contents (Elt Ideal)) (b : Fin 262144) (r c : Fin 3) :
    Host.dotGeneral (F := Ideal) (φ₁ := .f32) (φ₂ := .f32) dot_S262144x3x3_S262144x3x3_S262144x3x3_2_1_1_2_0_0 none l m (ix3 b r c)
      = l (ix3 b r 0) * m (ix3 b 0 c) + l (ix3 b r 1) * m (ix3 b 1 c) + l (ix3 b r 2) * m (ix3 b 2 c) := by
  simp only [Host.dotGeneral]
  rw [Ideal.dotGeneral_apply, ← Equiv.sum_comp (ValueIdx.contrEquiv1 dot_S262144x3x3_S262144x3x3_S262144x3x3_2_1_1_2_0_0 3 rfl rfl).symm]
  -- the left operand's index at contraction position k: batch b, row r, column k
  have el : ∀ k : Fin 3, dot_S262144x3x3_S262144x3x3_S262144x3x3_2_1_1_2_0_0.lhsIdx (ix3 b r c) ((ValueIdx.contrEquiv1 dot_S262144x3x3_S262144x3x3_S262144x3x3_2_1_1_2_0_0 3 rfl rfl).symm k) = ix3 b r k := fun k => funext fun a => Fin.ext (by
    have hk := ValueIdx.contrEquiv1_symm_val dot_S262144x3x3_S262144x3x3_S262144x3x3_2_1_1_2_0_0 3 rfl rfl k
    match a with
    | ⟨0, _⟩ => exact lhs_main_v4_0 _ _
    | ⟨1, _⟩ => exact lhs_main_v4_1 _ _
    | ⟨2, _⟩ => exact (lhs_main_v4_2 _ _).trans hk)
  -- the right operand's index at contraction position k: batch b, row k, column c
  have er : ∀ k : Fin 3, dot_S262144x3x3_S262144x3x3_S262144x3x3_2_1_1_2_0_0.rhsIdx (ix3 b r c) ((ValueIdx.contrEquiv1 dot_S262144x3x3_S262144x3x3_S262144x3x3_2_1_1_2_0_0 3 rfl rfl).symm k) = ix3 b k c := fun k => funext fun a => Fin.ext (by
    have hk := ValueIdx.contrEquiv1_symm_val dot_S262144x3x3_S262144x3x3_S262144x3x3_2_1_1_2_0_0 3 rfl rfl k
    match a with
    | ⟨0, _⟩ => exact rhs_main_v4_0 _ _
    | ⟨1, _⟩ => exact (rhs_main_v4_1 _ _).trans hk
    | ⟨2, _⟩ => exact rhs_main_v4_2 _ _)
  rw [Fin.sum_univ_three, el, el, el, er, er, er]

/-! ## One joint of the chain -/

/-- The chain's local matrix of a joint below 22 is the argument array read at that joint. -/
theorem rotOf_fin (a : (⟨S262144x22x3x3, .f32⟩ : BufTy).Contents (Elt Ideal)) (b : Fin 262144) (i : Fin 22) (r c : Fin 3) :
    rotOf a b i.val r c = a (ix4 b i r c) := by
  show a (ix4 b ⟨i.val % 22, _⟩ r c) = a (ix4 b i r c)
  congr 2
  exact Fin.ext (Nat.mod_eq_of_lt i.isLt)

/-- One joint of the chain.  If the parent's buffer reads as the chain's global matrix of the parent p, and the
    joint's local buffer reads as the argument's matrix of joint i, then the product of the two buffers reads as
    the chain's global matrix of joint i: the product's three-term sum is the recurrence's G_i = G_p · L_i. -/
theorem joint_read (a : (⟨S262144x22x3x3, .f32⟩ : BufTy).Contents (Elt Ideal)) (b : Fin 262144) (i p : Fin 22)
    (P L : (⟨S262144x3x3, .f32⟩ : BufTy).Contents (Elt Ideal))
    (hrec : globE (rotOf a b) i.val = mm (· * ·) (· + ·) (globE (rotOf a b) p.val) (rotOf a b i.val))
    (hP : ∀ r c : Fin 3, P (ix3 b r c) = globE (rotOf a b) p.val r c)
    (hL : ∀ r c : Fin 3, L (ix3 b r c) = a (ix4 b i r c)) (r c : Fin 3) :
    Host.dotGeneral (F := Ideal) (φ₁ := .f32) (φ₂ := .f32) dot_S262144x3x3_S262144x3x3_S262144x3x3_2_1_1_2_0_0 none P L (ix3 b r c)
      = globE (rotOf a b) i.val r c := by
  rw [hrec, mm_apply, prod_read, hP, hP, hP, hL, hL, hL, rotOf_fin, rotOf_fin, rotOf_fin]

/-! ## The 22 joints, in the order they are computed

Each product's operands are named: the buffer of the parent's global matrices and the buffer of the joint's local
matrices.  The recurrence G_i = G_{p(i)} · L_i of the chain holds by computation for each literal pair (i, p(i)). -/

section Joints
variable (a : (⟨S262144x22x3x3, .f32⟩ : BufTy).Contents (Elt Ideal)) (b : Fin 262144)

/-- Joint 0, the root: its global matrix is its local one. -/
theorem read_0 (r c : Fin 3) : val_main_v1 (F := Ideal) a (ix3 b r c) = globE (rotOf a b) 0 r c :=
  (loc_read a 0 b r c).trans (rotOf_fin a b 0 r c).symm

/-- Joint 1, parent 0. -/
theorem read_1 (r c : Fin 3) : val_main_v4 (F := Ideal) a (ix3 b r c) = globE (rotOf a b) 1 r c :=
  joint_read a b 1 0 (val_main_v1 (F := Ideal) a) (val_main_v3 (F := Ideal) a) rfl (read_0 a b)
    (fun r c => loc_read a 1 b r c) r c

/-- Joint 2, parent 0. -/
theorem read_2 (r c : Fin 3) : val_main_v7 (F := Ideal) a (ix3 b r c) = globE (rotOf a b) 2 r c :=
  joint_read a b 2 0 (val_main_v1 (F := Ideal) a) (val_main_v6 (F := Ideal) a) rfl (read_0 a b)
    (fun r c => loc_read a 2 b r c) r c

/-- Joint 3, parent 0. -/
theorem read_3 (r c : Fin 3) : val_main_v10 (F := Ideal) a (ix3 b r c) = globE (rotOf a b) 3 r c :=
  joint_read a b 3 0 (val_main_v1 (F := Ideal) a) (val_main_v9 (F := Ideal) a) rfl (read_0 a b)
    (fun r c => loc_read a 3 b r c) r c

/-- Joint 4, parent 1. -/
theorem read_4 (r c : Fin 3) : val_main_v13 (F := Ideal) a (ix3 b r c) = globE (rotOf a b) 4 r c :=
  joint_read a b 4 1 (val_main_v4 (F := Ideal) a) (val_main_v12 (F := Ideal) a) rfl (read_1 a b)
    (fun r c => loc_read a 4 b r c) r c

/-- Joint 5, parent 2. -/
theorem read_5 (r c : Fin 3) : val_main_v16 (F := Ideal) a (ix3 b r c) = globE (rotOf a b) 5 r c :=
  joint_read a b 5 2 (val_main_v7 (F := Ideal) a) (val_main_v15 (F := Ideal) a) rfl (read_2 a b)
    (fun r c => loc_read a 5 b r c) r c

/-- Joint 6, parent 3. -/
theorem read_6 (r c : Fin 3) : val_main_v19 (F := Ideal) a (ix3 b r c) = globE (rotOf a b) 6 r c :=
  joint_read a b 6 3 (val_main_v10 (F := Ideal) a) (val_main_v18 (F := Ideal) a) rfl (read_3 a b)
    (fun r c => loc_read a 6 b r c) r c

/-- Joint 7, parent 4. -/
theorem read_7 (r c : Fin 3) : val_main_v22 (F := Ideal) a (ix3 b r c) = globE (rotOf a b) 7 r c :=
  joint_read a b 7 4 (val_main_v13 (F := Ideal) a) (val_main_v21 (F := Ideal) a) rfl (read_4 a b)
    (fun r c => loc_read a 7 b r c) r c

/-- Joint 8, parent 5. -/
theorem read_8 (r c : Fin 3) : val_main_v25 (F := Ideal) a (ix3 b r c) = globE (rotOf a b) 8 r c :=
  joint_read a b 8 5 (val_main_v16 (F := Ideal) a) (val_main_v24 (F := Ideal) a) rfl (read_5 a b)
    (fun r c => loc_read a 8 b r c) r c

/-- Joint 9, parent 6. -/
theorem read_9 (r c : Fin 3) : val_main_v28 (F := Ideal) a (ix3 b r c) = globE (rotOf a b) 9 r c :=
  joint_read a b 9 6 (val_main_v19 (F := Ideal) a) (val_main_v27 (F := Ideal) a) rfl (read_6 a b)
    (fun r c => loc_read a 9 b r c) r c

/-- Joint 10, parent 7. -/
theorem read_10 (r c : Fin 3) : val_main_v31 (F := Ideal) a (ix3 b r c) = globE (rotOf a b) 10 r c :=
  joint_read a b 10 7 (val_main_v22 (F := Ideal) a) (val_main_v30 (F := Ideal) a) rfl (read_7 a b)
    (fun r c => loc_read a 10 b r c) r c

/-- Joint 11, parent 8. -/
theorem read_11 (r c : Fin 3) : val_main_v34 (F := Ideal) a (ix3 b r c) = globE (rotOf a b) 11 r c :=
  joint_read a b 11 8 (val_main_v25 (F := Ideal) a) (val_main_v33 (F := Ideal) a) rfl (read_8 a b)
    (fun r c => loc_read a 11 b r c) r c

/-- Joint 12, parent 9. -/
theorem read_12 (r c : Fin 3) : val_main_v37 (F := Ideal) a (ix3 b r c) = globE (rotOf a b) 12 r c :=
  joint_read a b 12 9 (val_main_v28 (F := Ideal) a) (val_main_v36 (F := Ideal) a) rfl (read_9 a b)
    (fun r c => loc_read a 12 b r c) r c

/-- Joint 13, parent 9. -/
theorem read_13 (r c : Fin 3) : val_main_v40 (F := Ideal) a (ix3 b r c) = globE (rotOf a b) 13 r c :=
  joint_read a b 13 9 (val_main_v28 (F := Ideal) a) (val_main_v39 (F := Ideal) a) rfl (read_9 a b)
    (fun r c => loc_read a 13 b r c) r c

/-- Joint 14, parent 9. -/
theorem read_14 (r c : Fin 3) : val_main_v43 (F := Ideal) a (ix3 b r c) = globE (rotOf a b) 14 r c :=
  joint_read a b 14 9 (val_main_v28 (F := Ideal) a) (val_main_v42 (F := Ideal) a) rfl (read_9 a b)
    (fun r c => loc_read a 14 b r c) r c

/-- Joint 15, parent 12. -/
theorem read_15 (r c : Fin 3) : val_main_v46 (F := Ideal) a (ix3 b r c) = globE (rotOf a b) 15 r c :=
  joint_read a b 15 12 (val_main_v37 (F := Ideal) a) (val_main_v45 (F := Ideal) a) rfl (read_12 a b)
    (fun r c => loc_read a 15 b r c) r c

/-- Joint 16, parent 13. -/
theorem read_16 (r c : Fin 3) : val_main_v49 (F := Ideal) a (ix3 b r c) = globE (rotOf a b) 16 r c :=
  joint_read a b 16 13 (val_main_v40 (F := Ideal) a) (val_main_v48 (F := Ideal) a) rfl (read_13 a b)
    (fun r c => loc_read a 16 b r c) r c

/-- Joint 17, parent 14. -/
theorem read_17 (r c : Fin 3) : val_main_v52 (F := Ideal) a (ix3 b r c) = globE (rotOf a b) 17 r c :=
  joint_read a b 17 14 (val_main_v43 (F := Ideal) a) (val_main_v51 (F := Ideal) a) rfl (read_14 a b)
    (fun r c => loc_read a 17 b r c) r c

/-- Joint 18, parent 16. -/
theorem read_18 (r c : Fin 3) : val_main_v55 (F := Ideal) a (ix3 b r c) = globE (rotOf a b) 18 r c :=
  joint_read a b 18 16 (val_main_v49 (F := Ideal) a) (val_main_v54 (F := Ideal) a) rfl (read_16 a b)
    (fun r c => loc_read a 18 b r c) r c

/-- Joint 19, parent 17. -/
theorem read_19 (r c : Fin 3) : val_main_v58 (F := Ideal) a (ix3 b r c) = globE (rotOf a b) 19 r c :=
  joint_read a b 19 17 (val_main_v52 (F := Ideal) a) (val_main_v57 (F := Ideal) a) rfl (read_17 a b)
    (fun r c => loc_read a 19 b r c) r c

/-- Joint 20, parent 18. -/
theorem read_20 (r c : Fin 3) : val_main_v61 (F := Ideal) a (ix3 b r c) = globE (rotOf a b) 20 r c :=
  joint_read a b 20 18 (val_main_v55 (F := Ideal) a) (val_main_v60 (F := Ideal) a) rfl (read_18 a b)
    (fun r c => loc_read a 20 b r c) r c

/-- Joint 21, parent 19. -/
theorem read_21 (r c : Fin 3) : val_main_v64 (F := Ideal) a (ix3 b r c) = globE (rotOf a b) 21 r c :=
  joint_read a b 21 19 (val_main_v58 (F := Ideal) a) (val_main_v63 (F := Ideal) a) rfl (read_19 a b)
    (fun r c => loc_read a 21 b r c) r c

end Joints

/-! ## All joints -/

/-- Joint j's global matrix of batch element b, entry (r, c), is the chain's. -/
theorem glob_read (a : (⟨S262144x22x3x3, .f32⟩ : BufTy).Contents (Elt Ideal)) (j : Fin 22) (b : Fin 262144) (r c : Fin 3) :
    globBuf a j.val (ix3 b r c) = globE (rotOf a b) j.val r c :=
  match j with
  | ⟨0, _⟩ => read_0 a b r c
  | ⟨1, _⟩ => read_1 a b r c
  | ⟨2, _⟩ => read_2 a b r c
  | ⟨3, _⟩ => read_3 a b r c
  | ⟨4, _⟩ => read_4 a b r c
  | ⟨5, _⟩ => read_5 a b r c
  | ⟨6, _⟩ => read_6 a b r c
  | ⟨7, _⟩ => read_7 a b r c
  | ⟨8, _⟩ => read_8 a b r c
  | ⟨9, _⟩ => read_9 a b r c
  | ⟨10, _⟩ => read_10 a b r c
  | ⟨11, _⟩ => read_11 a b r c
  | ⟨12, _⟩ => read_12 a b r c
  | ⟨13, _⟩ => read_13 a b r c
  | ⟨14, _⟩ => read_14 a b r c
  | ⟨15, _⟩ => read_15 a b r c
  | ⟨16, _⟩ => read_16 a b r c
  | ⟨17, _⟩ => read_17 a b r c
  | ⟨18, _⟩ => read_18 a b r c
  | ⟨19, _⟩ => read_19 a b r c
  | ⟨20, _⟩ => read_20 a b r c
  | ⟨21, _⟩ => read_21 a b r c
  | ⟨n + 22, h⟩ => absurd h (by omega)

/-- The reference's result is the specification. -/
theorem ref_is_G (a : (⟨S262144x22x3x3, .f32⟩ : BufTy).Contents (Elt Ideal)) : val_main_v89 (F := Ideal) a = G a := by
  funext i
  obtain ⟨b, j, r, c, rfl⟩ : ∃ (b : Fin 262144) (j : Fin 22) (r c : Fin 3), i = ix4 b j r c :=
    ⟨i 0, i 1, i 2, i 3, eq_ix4 i⟩
  rw [stack_read, glob_read, G_apply]

open Idealize.SL.Sem in
/-- The reference's run ends with the specification of its argument in the result array, the argument unchanged. -/
theorem run_G (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v89) = G (m ((c.tc : Thread nD τ).loc main_arg0))
      ∧ r.2.mem ((c.tc : Thread nD τ).loc main_arg0) = m ((c.tc : Thread nD τ).loc main_arg0) :=
  (θ_run defs _ _).mono (fun _ h c => ⟨by rw [(h c).1, val_main_v89_eq, ref_is_G], (h c).2⟩)
    (Cert.ReferenceIdeal.Value.run (F := Ideal) m ρ)

end Cert.ReferenceIdeal.RefValue

end
-- ==== Proof.lean ====
/-
  Forward kinematics of a 22-joint body, batched over 262144 elements: the kernel against its reference.

  Every joint j carries a local 3×3 matrix L_j; its global matrix is the product down the path from the root of
  the joint tree, G_0 = L_0 and G_j = G_{p(j)} · L_j for the parent p(j) < j. Both programs compute all 22
  global matrices of every batch element.

  The reference forms each G_j as a batched matrix product of two [262144, 3, 3] arrays and stacks the results.
  The kernel re-lays the argument as [262144, 198], and per tile of 4096 batch elements transposes the tile so
  that each of the 198 matrix entries becomes a row of 4096 lanes, forms the entries of every G_j row by row
  (lane by lane) as (a₀·b₀ + a₁·b₁) + a₂·b₂, collects the rows in a scratch, and transposes back.

  Over the extended reals an entry of a product IS that three-term sum (a sum over three indices, read in
  order), so both programs compute the same function of the argument array, `Chain.G`: no law of arithmetic is
  needed beyond reading the sum, and the precondition (finite inputs) is never opened. The chain is defined
  once over any carrier with a product and a sum (Proof/Chain.lean); the kernel's rows are that chain over rows
  of lanes (Proof/Tile.lean), carried from tiles to the array and through the two re-layings
  (Proof/KernelArray.lean); the reference's buffers are that chain over extended reals, joint by joint
  (Proof/RefLocal.lean, Proof/RefProducts.lean).

  The kernel's frames are the generated ones; the reference's frame is its generated run with the result
  dropped; the idealization rewrote nothing, so `preserves` is `True`.
-/
import proofs.«181221_j50989851738461_1_alg».proof.Defs
import proofs.«181221_j50989851738461_1_alg».proof.Proof.Gen.Kernel
import proofs.«181221_j50989851738461_1_alg».proof.Proof.Gen.Kernel.Skeleton
import proofs.«181221_j50989851738461_1_alg».proof.Proof.Gen.Kernel.Launch
import proofs.«181221_j50989851738461_1_alg».proof.Proof.Gen.Kernel.Points
import proofs.«181221_j50989851738461_1_alg».proof.Proof.Gen.Kernel.Frame
import proofs.«181221_j50989851738461_1_alg».proof.Proof.Gen.KernelIdeal
import proofs.«181221_j50989851738461_1_alg».proof.Proof.Gen.KernelIdeal.Skeleton
import proofs.«181221_j50989851738461_1_alg».proof.Proof.Gen.KernelIdeal.Launch
import proofs.«181221_j50989851738461_1_alg».proof.Proof.Gen.KernelIdeal.Points
import proofs.«181221_j50989851738461_1_alg».proof.Proof.Gen.KernelIdeal.Frame
import proofs.«181221_j50989851738461_1_alg».proof.Proof.Gen.ReferenceIdeal
import proofs.«181221_j50989851738461_1_alg».proof.Proof.Gen.Pre_finite_inputs
import proofs.«181221_j50989851738461_1_alg».proof.Proof.Gen.ReferenceIdeal.Run
import proofs.«181221_j50989851738461_1_alg».proof.Proof.Gen.ReferenceIdeal.Read
import proofs.«181221_j50989851738461_1_alg».proof.Proof.KernelArray
import proofs.«181221_j50989851738461_1_alg».proof.Proof.RefProducts
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories that agree on the argument array both programs end with `Chain.G` of it in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Chain.G (m ((c.tc : Thread Cert.KernelIdeal.nD Cert.KernelIdeal.τ).loc Cert.KernelIdeal.main_arg0)),
    Cert.KernelIdeal.Whole.run_G m ρ, ?_⟩
  refine (θ_run Cert.ReferenceIdeal.defs _ _).mono (fun _ h c => ⟨?_, (h c).2⟩)
    (Cert.ReferenceIdeal.RefValue.run_G m' ρ')
  rw [(h c).1, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
